-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S128x40 .f32) (main_arg9 : FVec F S40 .f32) (main_v33 : IVec S_ 1) : IVec S_ 1 :=
  let main_v34 : FVec F S128x40 .f32 := Host.absf main_arg8
  let main_cst_12 : FVec F S_ .f32 := constant S_ .f32 0x7F800000#32
  let main_v35 : FVec F S128x40 .f32 := broadcastInDim S128x40 ![] bcast_S_S128x40 main_cst_12
  let main_v36 : IVec S128x40 1 := cmpf .olt main_v34 main_v35
  let main_c_13 : IVec S_ 1 := constantI S_ 1 1#1
  let main_v37 : IVec S_ 1 := (fun x v => Host.reduce IntOp.andi x v reducesTo_S128x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x40 .f32) (main_arg9 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x256 .f32) (main_arg1 : IVec S2x1600000 32) (main_arg2 : FVec F S256x128 .f32) (main_arg3 : FVec F S128 .f32) (main_arg4 : FVec F S128x128 .f32) (main_arg5 : FVec F S128 .f32) (main_arg6 : FVec F S128x128 .f32) (main_arg7 : FVec F S128 .f32) (main_arg8 : FVec F S128x40 .f32) (main_arg9 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S1x40 : Shape := ⟨2, ![1, 40]⟩
abbrev S100000x40 : Shape := ⟨2, ![100000, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 100
  | .vmem => 22
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x40, .f32⟩
  | .hbm, ⟨9, _⟩ => ⟨S40, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S1x128, .f32⟩
  | .hbm, ⟨51, _⟩ => ⟨S100000x128, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x1, .f32⟩
  | .hbm, ⟨63, _⟩ => ⟨S1700000x128, .f32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S_, .i32⟩
  | .hbm, ⟨77, _⟩ => ⟨S1700000, .i32⟩
  | .hbm, ⟨78, _⟩ => ⟨S1700000, .i1⟩
  | .hbm, ⟨79, _⟩ => ⟨S_, .i32⟩
  | .hbm, ⟨80, _⟩ => ⟨S1700000, .i32⟩
  | .hbm, ⟨81, _⟩ => ⟨S1700000, .i32⟩
  | .hbm, ⟨82, _⟩ => ⟨S1700000, .i32⟩
  | .hbm, ⟨83, _⟩ => ⟨S1700000x1, .i32⟩
  | .hbm, ⟨84, _⟩ => ⟨S1700000x128, .f32⟩
  | .hbm, ⟨85, _⟩ => ⟨S1700000x1, .f32⟩
  | .hbm, ⟨86, _⟩ => ⟨S1700000x128, .f32⟩
  | .hbm, ⟨87, _⟩ => ⟨S1700000x128, .f32⟩
  | .hbm, ⟨88, _⟩ => ⟨S_, .f32⟩
  | .hbm, ⟨89, _⟩ => ⟨S100000x128, .f32⟩
  | .hbm, ⟨90, _⟩ => ⟨S1700000x1, .i32⟩
  | .hbm, ⟨91, _⟩ => ⟨S100000x128, .f32⟩
  | .hbm, ⟨92, _⟩ => ⟨S1x128, .f32⟩
  | .hbm, ⟨93, _⟩ => ⟨S100000x128, .f32⟩
  | .hbm, ⟨94, _⟩ => ⟨S100000x128, .f32⟩
  | .hbm, ⟨95, _⟩ => ⟨S_, .f32⟩
  | .hbm, ⟨96, _⟩ => ⟨S100000x128, .f32⟩
  | .hbm, ⟨97, _⟩ => ⟨S100000x128, .f32⟩
  | .hbm, ⟨98, _⟩ => ⟨S1x40, .f32⟩
  | .hbm, ⟨99, _⟩ => ⟨S100000x40, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x40, .f32⟩
  | .local _ .vmem, ⟨19, _⟩ => ⟨S1x40, .f32⟩
  | .local _ .vmem, ⟨20, _⟩ => ⟨S5000x40, .f32⟩
  | .local _ .vmem, ⟨21, _⟩ => ⟨S5000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_c_9 : Ref sig .tc := ⟨.hbm, 76, rfl⟩
abbrev main_v51 : Ref sig .tc := ⟨.hbm, 77, rfl⟩
abbrev main_v52 : Ref sig .tc := ⟨.hbm, 78, rfl⟩
abbrev main_c_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_11 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_call2_cst : Ref sig .tc := ⟨.hbm, 95, rfl⟩
abbrev main_call2_v0 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x40.size a ≤ S128x40.size a
  hwx3_1 : ∀ i : grid3.Coords, EltTy.bits .f32 = 32 ∨ (Rect.block (s := S128x40) S128x40.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x40.size a ≤ S1x40.size a
  hwx3_2 : ∀ i : grid3.Coords, EltTy.bits .f32 = 32 ∨ (Rect.block (s := S1x40) S1x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x40.size a ≤ S100000x40.size a
  hwx3_3 : ∀ i : grid3.Coords, EltTy.bits .f32 = 32 ∨ (Rect.block (s := S100000x40) S5000x40.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v67) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S1x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v69) S5000x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1x128 : Shape := ⟨2, ![1, 128]⟩
abbrev S1700000x128 : Shape := ⟨2, ![1700000, 128]⟩
abbrev S100000x40 : Shape := ⟨2, ![100000, 40]⟩
abbrev S1x40 : Shape := ⟨2, ![1, 40]⟩
abbrev S100000x1 : Shape := ⟨2, ![100000, 1]⟩

abbrev nBuf : Space → Nat
  | .hbm => 119
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x40, .f32⟩
  | .hbm, ⟨9, _⟩ => ⟨S40, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S100000x128, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000x128, .f32⟩
  | .hbm, ⟨64, _⟩ => ⟨S1700000x1, .f32⟩
  | .hbm, ⟨65, _⟩ => ⟨S1700000x128, .f32⟩
  | .hbm, ⟨66, _⟩ => ⟨S1700000x128, .f32⟩
  | .hbm, ⟨67, _⟩ => ⟨S_, .f32⟩
  | .hbm, ⟨68, _⟩ => ⟨S100000x128, .f32⟩
  | .hbm, ⟨69, _⟩ => ⟨S1700000x1, .i32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S_, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S_, .i32⟩
  | .hbm, ⟨79, _⟩ => ⟨S1700000, .i32⟩
  | .hbm, ⟨80, _⟩ => ⟨S1700000, .i1⟩
  | .hbm, ⟨81, _⟩ => ⟨S_, .i32⟩
  | .hbm, ⟨82, _⟩ => ⟨S1700000, .i32⟩
  | .hbm, ⟨83, _⟩ => ⟨S1700000, .i32⟩
  | .hbm, ⟨84, _⟩ => ⟨S1700000, .i32⟩
  | .hbm, ⟨85, _⟩ => ⟨S1700000x1, .i32⟩
  | .hbm, ⟨86, _⟩ => ⟨S1700000x128, .f32⟩
  | .hbm, ⟨87, _⟩ => ⟨S1700000x1, .f32⟩
  | .hbm, ⟨88, _⟩ => ⟨S1700000x128, .f32⟩
  | .hbm, ⟨89, _⟩ => ⟨S1700000x128, .f32⟩
  | .hbm, ⟨90, _⟩ => ⟨S_, .f32⟩
  | .hbm, ⟨91, _⟩ => ⟨S100000x128, .f32⟩
  | .hbm, ⟨92, _⟩ => ⟨S1700000x1, .i32⟩
  | .hbm, ⟨93, _⟩ => ⟨S100000x128, .f32⟩
  | .hbm, ⟨94, _⟩ => ⟨S1x128, .f32⟩
  | .hbm, ⟨95, _⟩ => ⟨S100000x128, .f32⟩
  | .hbm, ⟨96, _⟩ => ⟨S100000x128, .f32⟩
  | .hbm, ⟨97, _⟩ => ⟨S_, .f32⟩
  | .hbm, ⟨98, _⟩ => ⟨S100000x128, .f32⟩
  | .hbm, ⟨99, _⟩ => ⟨S100000x128, .f32⟩
  | .hbm, ⟨100, _⟩ => ⟨S100000x40, .f32⟩
  | .hbm, ⟨101, _⟩ => ⟨S1x40, .f32⟩
  | .hbm, ⟨102, _⟩ => ⟨S100000x40, .f32⟩
  | .hbm, ⟨103, _⟩ => ⟨S100000x40, .f32⟩
  | .hbm, ⟨104, _⟩ => ⟨S_, .f32⟩
  | .hbm, ⟨105, _⟩ => ⟨S100000, .f32⟩
  | .hbm, ⟨106, _⟩ => ⟨S_, .f32⟩
  | .hbm, ⟨107, _⟩ => ⟨S100000, .f32⟩
  | .hbm, ⟨108, _⟩ => ⟨S100000, .f32⟩
  | .hbm, ⟨109, _⟩ => ⟨S100000x1, .f32⟩
  | .hbm, ⟨110, _⟩ => ⟨S100000x40, .f32⟩
  | .hbm, ⟨111, _⟩ => ⟨S100000x40, .f32⟩
  | .hbm, ⟨112, _⟩ => ⟨S100000x40, .f32⟩
  | .hbm, ⟨113, _⟩ => ⟨S_, .f32⟩
  | .hbm, ⟨114, _⟩ => ⟨S100000, .f32⟩
  | .hbm, ⟨115, _⟩ => ⟨S100000x1, .f32⟩
  | .hbm, ⟨116, _⟩ => ⟨S100000x1, .f32⟩
  | .hbm, ⟨117, _⟩ => ⟨S100000x40, .f32⟩
  | .hbm, ⟨118, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_6 : Ref sig .tc := ⟨.hbm, 55, rfl⟩
abbrev main_v35 : Ref sig .tc := ⟨.hbm, 56, rfl⟩
abbrev main_v36 : Ref sig .tc := ⟨.hbm, 57, rfl⟩
abbrev main_c_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call1_cst : Ref sig .tc := ⟨.hbm, 74, rfl⟩
abbrev main_call1_v0 : Ref sig .tc := ⟨.hbm, 75, rfl⟩
abbrev main_v51 : Ref sig .tc := ⟨.hbm, 76, rfl⟩
abbrev main_v52 : Ref sig .tc := ⟨.hbm, 77, rfl⟩
abbrev main_c_9 : Ref sig .tc := ⟨.hbm, 78, rfl⟩
abbrev main_v53 : Ref sig .tc := ⟨.hbm, 79, rfl⟩
abbrev main_v54 : Ref sig .tc := ⟨.hbm, 80, rfl⟩
abbrev main_c_10 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_11 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_call2_cst : Ref sig .tc := ⟨.hbm, 97, rfl⟩
abbrev main_call2_v0 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_call3_cst : Ref sig .tc := ⟨.hbm, 104, rfl⟩
abbrev main_call3_v0 : Ref sig .tc := ⟨.hbm, 105, rfl⟩
abbrev main_call3_cst_0 : Ref sig .tc := ⟨.hbm, 106, rfl⟩
abbrev main_call3_v1 : Ref sig .tc := ⟨.hbm, 107, rfl⟩
abbrev main_call3_v2 : Ref sig .tc := ⟨.hbm, 108, rfl⟩
abbrev main_call3_v3 : Ref sig .tc := ⟨.hbm, 109, rfl⟩
abbrev main_call3_v4 : Ref sig .tc := ⟨.hbm, 110, rfl⟩
abbrev main_call3_v5 : Ref sig .tc := ⟨.hbm, 111, rfl⟩
abbrev main_call3_v6 : Ref sig .tc := ⟨.hbm, 112, rfl⟩
abbrev main_call3_cst_1 : Ref sig .tc := ⟨.hbm, 113, rfl⟩
abbrev main_call3_v7 : Ref sig .tc := ⟨.hbm, 114, rfl⟩
abbrev main_call3_v8 : Ref sig .tc := ⟨.hbm, 115, rfl⟩
abbrev main_call3_v9 : Ref sig .tc := ⟨.hbm, 116, rfl⟩
abbrev main_call3_v10 : Ref sig .tc := ⟨.hbm, 117, rfl⟩
abbrev main_v74 : Ref sig .tc := ⟨.hbm, 118, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.RefStages.lean ====
import proofs.«171773_j83657372991833_1_alg».proof.Proof.RefRead
import Idealize.ShloMosaic.Lib.StableHlo.Run
import Idealize.ShloMosaic.Lib.Pipeline.Frame

/-!
The reference program's run, stage by stage.

The reference is one straight line of 109 host operations. Its buffers after the first `k` operations are a fold from the
launch memory (`upTo`); cutting the line at `j` makes the fold after `j + k` operations the fold of the next `k` operations
from the fold after `j`. The line is cut where the kernel program cuts it: after the degree count, after the select that
guards the inverse square root, after the edge weights, after the first dense layer and the first product, after each
aggregation with its clamp, after each product, after the logits; the four long stretches between those cuts (the edge
weights, the two aggregations, the log-softmax) are cut again, every few operations. At each cut the buffers that later operations read are
named by the stage function that computes them from the arguments (one operation's function of the stages of its
operands), so no stage is ever opened further than one cut back. After the last operation the result buffer holds the
result stage of the ten arguments, and no operation writes an argument.
-/

set_option maxRecDepth 16384

noncomputable section

namespace Cert.ReferenceIdeal.Stages

open Cert.ReferenceIdeal Cert.ReferenceIdeal.Gen
open Idealize.ShloMosaic Idealize.ShloMosaic.TcCoe Idealize.SL.Sem Idealize.ShloMosaic.StableHlo
open Cert.ReferenceIdeal.ReadP

variable (m : (ℓ : Loc nD τ sig) → Buf (Elt Ideal) ℓ)

/-- Core `c`'s buffers after the first `k` operations of @main. -/
def upTo (k : Nat) (c : Dev nD) : Valuation τ sig (Elt Ideal) :=
  after ((ValueP.ops (F := Ideal)).take k) (launchContents m c)

/-- Cutting the line: the first `j + k` operations are the first `j`, then the next `k`. -/
theorem upTo_add (j k : Nat) (c : Dev nD) :
    upTo m (j + k) c = after (((ValueP.ops (F := Ideal)).drop j).take k) (upTo m j c) := by
  unfold upTo
  rw [List.take_add, StableHlo.after_append]

/-- All 109 operations. -/
theorem upTo_all (c : Dev nD) : upTo m 109 c = after (ValueP.ops (F := Ideal)) (launchContents m c) := by
  unfold upTo
  exact congrArg (fun l => after l (launchContents m c)) (List.take_of_length_le (Nat.le_of_eq rfl))

/-- Writes a cut of the operation list out as the literal list it is. -/
local macro "cut_ops" : tactic =>
  `(tactic| simp only [ValueP.ops, List.drop_succ_cons, List.drop_zero, List.take_succ_cons, List.take_zero])

/-- Reads a buffer back over a literal stretch of operations: each operation's result at its own buffer is its function
    of its operands' contents, any other buffer keeps its contents; then the transports between a called function's
    typed values and their buffers, which are identities, are cleared. -/
local macro "read_back" : tactic =>
  `(tactic| (after_results; all_goals (try simp only [TRef.ofBuf, TRef.toBuf, cast_eq])))

/-! ## The arguments, where later cuts read them: no operation writes one -/

theorem arg0_at40 (c : Dev nD) : upTo m 40 c (Proc.devRef .tc main_arg0) = (m ((c.tc : Thread nD τ).loc main_arg0)) := by
  unfold upTo; cut_ops; read_back; all_goals rfl
theorem arg2_at40 (c : Dev nD) : upTo m 40 c (Proc.devRef .tc main_arg2) = (m ((c.tc : Thread nD τ).loc main_arg2)) := by
  unfold upTo; cut_ops; read_back; all_goals rfl
theorem arg3_at40 (c : Dev nD) : upTo m 40 c (Proc.devRef .tc main_arg3) = (m ((c.tc : Thread nD τ).loc main_arg3)) := by
  unfold upTo; cut_ops; read_back; all_goals rfl
theorem arg4_at40 (c : Dev nD) : upTo m 40 c (Proc.devRef .tc main_arg4) = (m ((c.tc : Thread nD τ).loc main_arg4)) := by
  unfold upTo; cut_ops; read_back; all_goals rfl
theorem arg5_at45 (c : Dev nD) : upTo m 45 c (Proc.devRef .tc main_arg5) = (m ((c.tc : Thread nD τ).loc main_arg5)) := by
  unfold upTo; cut_ops; read_back; all_goals rfl
theorem arg6_at67 (c : Dev nD) : upTo m 67 c (Proc.devRef .tc main_arg6) = (m ((c.tc : Thread nD τ).loc main_arg6)) := by
  unfold upTo; cut_ops; read_back; all_goals rfl
theorem arg7_at68 (c : Dev nD) : upTo m 68 c (Proc.devRef .tc main_arg7) = (m ((c.tc : Thread nD τ).loc main_arg7)) := by
  unfold upTo; cut_ops; read_back; all_goals rfl
theorem arg8_at90 (c : Dev nD) : upTo m 90 c (Proc.devRef .tc main_arg8) = (m ((c.tc : Thread nD τ).loc main_arg8)) := by
  unfold upTo; cut_ops; read_back; all_goals rfl
theorem arg9_at90 (c : Dev nD) : upTo m 90 c (Proc.devRef .tc main_arg9) = (m ((c.tc : Thread nD τ).loc main_arg9)) := by
  unfold upTo; cut_ops; read_back; all_goals rfl

/-! ## The edge lists and the degrees: the first 18 operations -/

theorem src_at18 (c : Dev nD) : upTo m 18 c (Proc.devRef .tc main_v3) = val_main_v3 (F := Ideal) (m ((c.tc : Thread nD τ).loc main_arg1)) := by
  unfold upTo; cut_ops; read_back; all_goals rfl
theorem dst_at18 (c : Dev nD) : upTo m 18 c (Proc.devRef .tc main_v6) = val_main_v6 (F := Ideal) (m ((c.tc : Thread nD τ).loc main_arg1)) := by
  unfold upTo; cut_ops; read_back; all_goals rfl
theorem pos_at18 (c : Dev nD) : upTo m 18 c (Proc.devRef .tc main_v12) = val_main_v12 (F := Ideal) (m ((c.tc : Thread nD τ).loc main_arg1)) := by
  unfold upTo; cut_ops; read_back; all_goals rfl
theorem rsqrt_at18 (c : Dev nD) : upTo m 18 c (Proc.devRef .tc main_v13) = val_main_v13 (F := Ideal) (m ((c.tc : Thread nD τ).loc main_arg1)) := by
  unfold upTo; cut_ops; read_back; all_goals rfl
theorem zero_at18 (c : Dev nD) : upTo m 18 c (Proc.devRef .tc main_cst_2) = val_main_cst_2 (F := Ideal) := by
  unfold upTo; cut_ops; read_back; all_goals rfl

/-! ## The guarded inverse square root: operations 19 to 21 -/

theorem dinv_at21 (c : Dev nD) : upTo m 21 c (Proc.devRef .tc main_v14) = val_main_v14 (F := Ideal) (m ((c.tc : Thread nD τ).loc main_arg1)) := by
  rw [show upTo m 21 c = _ from upTo_add m 18 3 c]; cut_ops; read_back
  rw [pos_at18 m c, rsqrt_at18 m c, zero_at18 m c]; rfl
theorem keep21_main_v3 (c : Dev nD) : upTo m 21 c (Proc.devRef .tc main_v3) = upTo m 18 c (Proc.devRef .tc main_v3) := by
  rw [show upTo m 21 c = _ from upTo_add m 18 3 c]; cut_ops; read_back
theorem keep21_main_v6 (c : Dev nD) : upTo m 21 c (Proc.devRef .tc main_v6) = upTo m 18 c (Proc.devRef .tc main_v6) := by
  rw [show upTo m 21 c = _ from upTo_add m 18 3 c]; cut_ops; read_back

/-! ## The edge weights: operations 22 to 40

Three cuts: the inverse square roots gathered at every edge's source (the index first wrapped if negative), the same at
every edge's destination, and their product. -/

theorem keep30_main_v14 (c : Dev nD) : upTo m 30 c (Proc.devRef .tc main_v14) = upTo m 21 c (Proc.devRef .tc main_v14) := by
  rw [show upTo m 30 c = _ from upTo_add m 21 9 c]; cut_ops; read_back
theorem keep30_main_v6 (c : Dev nD) : upTo m 30 c (Proc.devRef .tc main_v6) = upTo m 21 c (Proc.devRef .tc main_v6) := by
  rw [show upTo m 30 c = _ from upTo_add m 21 9 c]; cut_ops; read_back
theorem dinvSrc_at30 (c : Dev nD) : upTo m 30 c (Proc.devRef .tc main_v21) = val_main_v21 (F := Ideal) (m ((c.tc : Thread nD τ).loc main_arg1)) := by
  rw [show upTo m 30 c = _ from upTo_add m 21 9 c]; cut_ops; read_back
  rw [dinv_at21 m c, (keep21_main_v3 m c).trans (src_at18 m c)]; rfl
theorem keep39_main_v21 (c : Dev nD) : upTo m 39 c (Proc.devRef .tc main_v21) = upTo m 30 c (Proc.devRef .tc main_v21) := by
  rw [show upTo m 39 c = _ from upTo_add m 30 9 c]; cut_ops; read_back
theorem dinvDst_at39 (c : Dev nD) : upTo m 39 c (Proc.devRef .tc main_v28) = val_main_v28 (F := Ideal) (m ((c.tc : Thread nD τ).loc main_arg1)) := by
  rw [show upTo m 39 c = _ from upTo_add m 30 9 c]; cut_ops; read_back
  rw [(keep30_main_v14 m c).trans (dinv_at21 m c), (keep30_main_v6 m c).trans ((keep21_main_v6 m c).trans (dst_at18 m c))]; rfl
theorem norm_at40 (c : Dev nD) : upTo m 40 c (Proc.devRef .tc main_v29) = val_main_v29 (F := Ideal) (m ((c.tc : Thread nD τ).loc main_arg1)) := by
  rw [show upTo m 40 c = _ from upTo_add m 39 1 c]; cut_ops; read_back
  rw [(keep39_main_v21 m c).trans (dinvSrc_at30 m c), dinvDst_at39 m c]; rfl
theorem keep40_main_v3 (c : Dev nD) : upTo m 40 c (Proc.devRef .tc main_v3) = upTo m 21 c (Proc.devRef .tc main_v3) := by
  rw [show upTo m 40 c = _ from upTo_add m 21 19 c]; cut_ops; read_back
theorem keep40_main_v6 (c : Dev nD) : upTo m 40 c (Proc.devRef .tc main_v6) = upTo m 21 c (Proc.devRef .tc main_v6) := by
  rw [show upTo m 40 c = _ from upTo_add m 21 19 c]; cut_ops; read_back
theorem src_at40 (c : Dev nD) : upTo m 40 c (Proc.devRef .tc main_v3) = val_main_v3 (F := Ideal) (m ((c.tc : Thread nD τ).loc main_arg1)) :=
  (keep40_main_v3 m c).trans ((keep21_main_v3 m c).trans (src_at18 m c))
theorem dst_at40 (c : Dev nD) : upTo m 40 c (Proc.devRef .tc main_v6) = val_main_v6 (F := Ideal) (m ((c.tc : Thread nD τ).loc main_arg1)) :=
  (keep40_main_v6 m c).trans ((keep21_main_v6 m c).trans (dst_at18 m c))

/-! ## The first dense layer and the first product: operations 41 to 45 -/

theorem lin1_at45 (c : Dev nD) : upTo m 45 c (Proc.devRef .tc main_v34) = val_main_v34 (F := Ideal) (m ((c.tc : Thread nD τ).loc main_arg0)) (m ((c.tc : Thread nD τ).loc main_arg2)) (m ((c.tc : Thread nD τ).loc main_arg3)) (m ((c.tc : Thread nD τ).loc main_arg4)) := by
  rw [show upTo m 45 c = _ from upTo_add m 40 5 c]; cut_ops; read_back
  rw [arg0_at40 m c, arg2_at40 m c, arg3_at40 m c, arg4_at40 m c]; rfl
theorem keep45_main_v3 (c : Dev nD) : upTo m 45 c (Proc.devRef .tc main_v3) = upTo m 40 c (Proc.devRef .tc main_v3) := by
  rw [show upTo m 45 c = _ from upTo_add m 40 5 c]; cut_ops; read_back
theorem keep45_main_v6 (c : Dev nD) : upTo m 45 c (Proc.devRef .tc main_v6) = upTo m 40 c (Proc.devRef .tc main_v6) := by
  rw [show upTo m 45 c = _ from upTo_add m 40 5 c]; cut_ops; read_back
theorem keep45_main_v29 (c : Dev nD) : upTo m 45 c (Proc.devRef .tc main_v29) = upTo m 40 c (Proc.devRef .tc main_v29) := by
  rw [show upTo m 45 c = _ from upTo_add m 40 5 c]; cut_ops; read_back

/-! ## The first aggregation and its clamp: operations 46 to 67

Five cuts: the rows of the first product gathered at every edge's source; each scaled by the edge's weight; the scaled rows
added up by destination into a zero array; the bias added; the result clamped below at zero. -/

theorem gath1_at54 (c : Dev nD) : upTo m 54 c (Proc.devRef .tc main_v41) = val_main_v41 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [show upTo m 54 c = _ from upTo_add m 45 9 c]; cut_ops; read_back
  rw [lin1_at45 m c, (keep45_main_v3 m c).trans (src_at40 m c)]; rfl
theorem keep54_main_v29 (c : Dev nD) : upTo m 54 c (Proc.devRef .tc main_v29) = upTo m 45 c (Proc.devRef .tc main_v29) := by
  rw [show upTo m 54 c = _ from upTo_add m 45 9 c]; cut_ops; read_back
theorem msg1_at57 (c : Dev nD) : upTo m 57 c (Proc.devRef .tc main_v44) = val_main_v44 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [show upTo m 57 c = _ from upTo_add m 54 3 c]; cut_ops; read_back
  rw [gath1_at54 m c, (keep54_main_v29 m c).trans ((keep45_main_v29 m c).trans (norm_at40 m c))]; rfl
theorem keep57_main_v6 (c : Dev nD) : upTo m 57 c (Proc.devRef .tc main_v6) = upTo m 45 c (Proc.devRef .tc main_v6) := by
  rw [show upTo m 57 c = _ from upTo_add m 45 12 c]; cut_ops; read_back
theorem agg1_at61 (c : Dev nD) : upTo m 61 c (Proc.devRef .tc main_v47) = val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [show upTo m 61 c = _ from upTo_add m 57 4 c]; cut_ops; read_back
  rw [msg1_at57 m c, (keep57_main_v6 m c).trans ((keep45_main_v6 m c).trans (dst_at40 m c))]; rfl
theorem keep61_main_arg5 (c : Dev nD) : upTo m 61 c (Proc.devRef .tc main_arg5) = upTo m 45 c (Proc.devRef .tc main_arg5) := by
  rw [show upTo m 61 c = _ from upTo_add m 45 16 c]; cut_ops; read_back
theorem pre1_at64 (c : Dev nD) : upTo m 64 c (Proc.devRef .tc main_v50) = val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [show upTo m 64 c = _ from upTo_add m 61 3 c]; cut_ops; read_back
  rw [agg1_at61 m c, (keep61_main_arg5 m c).trans (arg5_at45 m c)]; rfl
theorem h1_at67 (c : Dev nD) : upTo m 67 c (Proc.devRef .tc main_v51) = val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [show upTo m 67 c = _ from upTo_add m 64 3 c]; cut_ops; read_back
  rw [pre1_at64 m c]; rfl
theorem keep67_main_v3 (c : Dev nD) : upTo m 67 c (Proc.devRef .tc main_v3) = upTo m 45 c (Proc.devRef .tc main_v3) := by
  rw [show upTo m 67 c = _ from upTo_add m 45 22 c]; cut_ops; read_back
theorem keep67_main_v6 (c : Dev nD) : upTo m 67 c (Proc.devRef .tc main_v6) = upTo m 45 c (Proc.devRef .tc main_v6) := by
  rw [show upTo m 67 c = _ from upTo_add m 45 22 c]; cut_ops; read_back
theorem keep67_main_v29 (c : Dev nD) : upTo m 67 c (Proc.devRef .tc main_v29) = upTo m 45 c (Proc.devRef .tc main_v29) := by
  rw [show upTo m 67 c = _ from upTo_add m 45 22 c]; cut_ops; read_back

/-! ## The second product: operation 68 -/

theorem lin2_at68 (c : Dev nD) : upTo m 68 c (Proc.devRef .tc main_v52) = val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [show upTo m 68 c = _ from upTo_add m 67 1 c]; cut_ops; read_back
  rw [h1_at67 m c, arg6_at67 m c]; rfl
theorem keep68_main_v3 (c : Dev nD) : upTo m 68 c (Proc.devRef .tc main_v3) = upTo m 67 c (Proc.devRef .tc main_v3) := by
  rw [show upTo m 68 c = _ from upTo_add m 67 1 c]; cut_ops; read_back
theorem keep68_main_v6 (c : Dev nD) : upTo m 68 c (Proc.devRef .tc main_v6) = upTo m 67 c (Proc.devRef .tc main_v6) := by
  rw [show upTo m 68 c = _ from upTo_add m 67 1 c]; cut_ops; read_back
theorem keep68_main_v29 (c : Dev nD) : upTo m 68 c (Proc.devRef .tc main_v29) = upTo m 67 c (Proc.devRef .tc main_v29) := by
  rw [show upTo m 68 c = _ from upTo_add m 67 1 c]; cut_ops; read_back
theorem src_at68 (c : Dev nD) : upTo m 68 c (Proc.devRef .tc main_v3) = val_main_v3 (F := Ideal) (m ((c.tc : Thread nD τ).loc main_arg1)) :=
  (keep68_main_v3 m c).trans ((keep67_main_v3 m c).trans ((keep45_main_v3 m c).trans (src_at40 m c)))
theorem dst_at68 (c : Dev nD) : upTo m 68 c (Proc.devRef .tc main_v6) = val_main_v6 (F := Ideal) (m ((c.tc : Thread nD τ).loc main_arg1)) :=
  (keep68_main_v6 m c).trans ((keep67_main_v6 m c).trans ((keep45_main_v6 m c).trans (dst_at40 m c)))
theorem norm_at68 (c : Dev nD) : upTo m 68 c (Proc.devRef .tc main_v29) = val_main_v29 (F := Ideal) (m ((c.tc : Thread nD τ).loc main_arg1)) :=
  (keep68_main_v29 m c).trans ((keep67_main_v29 m c).trans ((keep45_main_v29 m c).trans (norm_at40 m c)))

/-! ## The second aggregation and its clamp: operations 69 to 90

The same five cuts over the second product. -/

theorem gath2_at77 (c : Dev nD) : upTo m 77 c (Proc.devRef .tc main_v59) = val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [show upTo m 77 c = _ from upTo_add m 68 9 c]; cut_ops; read_back
  rw [lin2_at68 m c, src_at68 m c]; rfl
theorem keep77_main_v29 (c : Dev nD) : upTo m 77 c (Proc.devRef .tc main_v29) = upTo m 68 c (Proc.devRef .tc main_v29) := by
  rw [show upTo m 77 c = _ from upTo_add m 68 9 c]; cut_ops; read_back
theorem msg2_at80 (c : Dev nD) : upTo m 80 c (Proc.devRef .tc main_v62) = val_main_v62 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [show upTo m 80 c = _ from upTo_add m 77 3 c]; cut_ops; read_back
  rw [gath2_at77 m c, (keep77_main_v29 m c).trans (norm_at68 m c)]; rfl
theorem keep80_main_v6 (c : Dev nD) : upTo m 80 c (Proc.devRef .tc main_v6) = upTo m 68 c (Proc.devRef .tc main_v6) := by
  rw [show upTo m 80 c = _ from upTo_add m 68 12 c]; cut_ops; read_back
theorem agg2_at84 (c : Dev nD) : upTo m 84 c (Proc.devRef .tc main_v65) = val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [show upTo m 84 c = _ from upTo_add m 80 4 c]; cut_ops; read_back
  rw [msg2_at80 m c, (keep80_main_v6 m c).trans (dst_at68 m c)]; rfl
theorem keep84_main_arg7 (c : Dev nD) : upTo m 84 c (Proc.devRef .tc main_arg7) = upTo m 68 c (Proc.devRef .tc main_arg7) := by
  rw [show upTo m 84 c = _ from upTo_add m 68 16 c]; cut_ops; read_back
theorem pre2_at87 (c : Dev nD) : upTo m 87 c (Proc.devRef .tc main_v68) = val_main_v68 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [show upTo m 87 c = _ from upTo_add m 84 3 c]; cut_ops; read_back
  rw [agg2_at84 m c, (keep84_main_arg7 m c).trans (arg7_at68 m c)]; rfl
theorem h2_at90 (c : Dev nD) : upTo m 90 c (Proc.devRef .tc main_v69) = val_main_v69 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [show upTo m 90 c = _ from upTo_add m 87 3 c]; cut_ops; read_back
  rw [pre2_at87 m c]; rfl

/-! ## The logits: operations 91 to 94 -/

theorem logits_at94 (c : Dev nD) : upTo m 94 c (Proc.devRef .tc main_v73) = val_main_v73 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [show upTo m 94 c = _ from upTo_add m 90 4 c]; cut_ops; read_back
  rw [h2_at90 m c, arg8_at90 m c, arg9_at90 m c]; rfl

/-! ## The row-wise log-softmax: operations 95 to 109

Every row's maximum as a fold of maxima from `-∞`; that once more against `-∞`; laid out as a column, then along the row;
the logits less it (these three one operation at a time); their exponentials; every row's sum of them; its logarithm, laid
out along the row; the difference. -/

theorem rmax0_at96 (c : Dev nD) : upTo m 96 c (Proc.devRef .tc main_call3_v0) = val_main_call3_v0 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [show upTo m 96 c = _ from upTo_add m 94 2 c]; cut_ops; read_back
  rw [logits_at94 m c]; rfl
theorem rowmax_at99 (c : Dev nD) : upTo m 99 c (Proc.devRef .tc main_call3_v2) = val_main_call3_v2 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [show upTo m 99 c = _ from upTo_add m 96 3 c]; cut_ops; read_back
  rw [rmax0_at96 m c]; rfl
theorem keep101_main_v73 (c : Dev nD) : upTo m 101 c (Proc.devRef .tc main_v73) = upTo m 94 c (Proc.devRef .tc main_v73) := by
  rw [show upTo m 101 c = _ from upTo_add m 94 7 c]; cut_ops; read_back
theorem bmax1_at100 (c : Dev nD) : upTo m 100 c (Proc.devRef .tc main_call3_v3) = val_main_call3_v3 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [show upTo m 100 c = _ from upTo_add m 99 1 c]; cut_ops; read_back
  rw [rowmax_at99 m c]; rfl
theorem bmax2_at101 (c : Dev nD) : upTo m 101 c (Proc.devRef .tc main_call3_v4) = val_main_call3_v4 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [show upTo m 101 c = _ from upTo_add m 100 1 c]; cut_ops; read_back
  rw [bmax1_at100 m c]; rfl
theorem shifted_at102 (c : Dev nD) : upTo m 102 c (Proc.devRef .tc main_call3_v5) = val_main_call3_v5 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [show upTo m 102 c = _ from upTo_add m 101 1 c]; cut_ops; read_back
  rw [bmax2_at101 m c, (keep101_main_v73 m c).trans (logits_at94 m c)]; rfl
theorem exps_at103 (c : Dev nD) : upTo m 103 c (Proc.devRef .tc main_call3_v6) = val_main_call3_v6 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [show upTo m 103 c = _ from upTo_add m 102 1 c]; cut_ops; read_back
  rw [shifted_at102 m c]; rfl
theorem sumexp_at105 (c : Dev nD) : upTo m 105 c (Proc.devRef .tc main_call3_v7) = val_main_call3_v7 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [show upTo m 105 c = _ from upTo_add m 103 2 c]; cut_ops; read_back
  rw [exps_at103 m c]; rfl
theorem lse_at108 (c : Dev nD) : upTo m 108 c (Proc.devRef .tc main_call3_v10) = val_main_call3_v10 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [show upTo m 108 c = _ from upTo_add m 105 3 c]; cut_ops; read_back
  rw [sumexp_at105 m c]; rfl
theorem keep108_main_call3_v5 (c : Dev nD) : upTo m 108 c (Proc.devRef .tc main_call3_v5) = upTo m 102 c (Proc.devRef .tc main_call3_v5) := by
  rw [show upTo m 108 c = _ from upTo_add m 102 6 c]; cut_ops; read_back
theorem result_at109 (c : Dev nD) : upTo m 109 c (Proc.devRef .tc main_v74) = val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [show upTo m 109 c = _ from upTo_add m 108 1 c]; cut_ops; read_back
  rw [(keep108_main_call3_v5 m c).trans (shifted_at102 m c), lse_at108 m c]; rfl

/-- After all 109 operations the result buffer holds the result stage of the arguments. -/
theorem result (c : Dev nD) :
    after (ValueP.ops (F := Ideal)) (launchContents m c) (Proc.devRef .tc main_v74) = val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (congrFun (upTo_all m c).symm _).trans (result_at109 m c)

/-! ## The run -/

set_option maxRecDepth 8192 in
set_option maxHeartbeats 4000000 in
/-- On every device, from any memory with zero counters: every weakly fair execution of @main terminates with the result
    array at the result stage of the arguments and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v74) = val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v74).trans (result m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl)⟩)
    (run_seq ValueP.scopedRefs_eq ValueP.scopedSems_eq defs main (fun _ => ValueP.ops) ValueP.main_eq (fun _ => ValueP.ops_sub) m ρ)

end Cert.ReferenceIdeal.Stages

end
-- ==== Proof.KRegion0.lean ====
import proofs.«171773_j83657372991833_1_alg».proof.Proof.Gen.KernelIdeal.Frame
import proofs.«171773_j83657372991833_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.Pipeline (Dat Cfg Window)
open Cert.ReferenceIdeal.ReadP
open Idealize.ShloMosaic.ValueIdx

/-! ## The block product's operand indices

The product of a 5000×256 block with the 256×128 weights contracts the left operand's axis 1 against the right operand's
axis 0: at output entry `(r, j)` and inner index `k` it reads the left operand at `(r, k)` and the right at `(k, j)`. -/

theorem lhs_blockDot_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_blockDot_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs_blockDot_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs_blockDot_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The block product at an entry: row `p` of the left block against column `q` of the right one. -/
theorem blockDot_apply (l : FVec Ideal S5000x256 .bf16) (r : FVec Ideal S256x128 .bf16) (p : Fin 5000) (q : Fin 128) :
    matmul dot_S5000x256_S256x128_S5000x128_1_0_0_1_n_n none l r (constant (F := Ideal) S5000x128 .f32 0x00000000#32) (ix2 p q)
      = ∑ k : Fin 256, l (ix2 p k) * r (ix2 k q) := by
  refine (Ideal.matmul_constant_zero_apply dot_S5000x256_S256x128_S5000x128_1_0_0_1_n_n none l r (ix2 p q)).trans ?_
  rw [← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx (ix2 p q) ((ValueIdx.contrEquiv1 dot_S5000x256_S256x128_S5000x128_1_0_0_1_n_n 256 rfl rfl).symm k) = ix2 p k := funext fun a => Fin.ext (by
    match a with
    | ⟨0, _⟩ => exact lhs_blockDot_0 _ _
    | ⟨1, _⟩ => exact (lhs_blockDot_1 _ _).trans hk)
  have er : dot_S5000x256_S256x128_S5000x128_1_0_0_1_n_n.rhsIdx (ix2 p q) ((ValueIdx.contrEquiv1 dot_S5000x256_S256x128_S5000x128_1_0_0_1_n_n 256 rfl rfl).symm k) = ix2 k q := funext fun a => Fin.ext (by
    match a with
    | ⟨0, _⟩ => exact (rhs_blockDot_0 _ _).trans hk
    | ⟨1, _⟩ => exact rhs_blockDot_1 _ _)
  rw [el, er]

/-- The body's result at an entry of the block: the row of the input block against the column of the weights, plus the
    bias row's entry of that column. Rounding to bf16 on the way into the product is the identity on the extended reals. -/
theorem payload_apply (x0 : Vec Ideal S5000x256 .f32) (x1 : Vec Ideal S256x128 .f32) (x2 : Vec Ideal S1x128 .f32) (p : Fin 5000) (q : Fin 128) :
    k0_pay1 (F := Ideal) x0 x1 x2 (ix2 p q) = (∑ k : Fin 256, x0 (ix2 p k) * x1 (ix2 k q)) + x2 (ix2 (0 : Fin 1) q) := by
  unfold k0_pay1
  refine (addf_apply _ _ (ix2 p q)).trans ?_
  refine congrArg₂ (· + ·) ((blockDot_apply _ _ p q).trans rfl) ?_
  refine (broadcastTo_1b_ab_apply _ broadcasts_S1x128_S5000x128 p q).trans ?_
  rw [shapeCast_self]

/-! ## Where the blocks sit -/

theorem zeroOffsets : (![0, 0] : Fin 2 → Nat) = fun _ => 0 := funext fun a => match a with | ⟨0, _⟩ => rfl | ⟨1, _⟩ => rfl

/-- The block indices over the twenty grid points: the input rows and the output rows move together, one block of 5000
    rows per point; the weights and the bias row are whole. -/
theorem blockIndex : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- An entry of the output array is in point `t`'s block iff each coordinate is in the block's range on its axis. -/
theorem mem_outBlock (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v31).slice (win0_3.rect t)).set ↔ _
  rw [View.set_slice_whole, Rect.mem_set_unit]
  exact Iff.rfl

/-- Row `r` lies in block `r / 5000`: the twenty blocks of 5000 rows fill the 100000 rows. -/
theorem outBlocks_cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := rfl
  let t : Fin cfg0.N := ⟨(i 0).val / 5000, by rw [hN]; omega⟩
  obtain ⟨e0, e1, -⟩ := blockIndex t
  have ht : t.val = (i 0).val / 5000 := rfl
  refine ⟨t, flush0_3 t, ?_⟩
  rw [mem_outBlock]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-! ## What a point writes back, and the array after the region -/

variable (V : (c : Dev nD) → (b : Ref sig .tc) → Buf (Elt Ideal) ((c : Thread nD τ).loc b))

/-- What point `t` writes back is block `t` of the reference's affine map of the whole arrays: an entry of the block in
    row `p`, column `q` is the same finite sum over the 256 inner indices, read where the block sits in each array, plus
    the bias vector's entry `q`. -/
theorem flushed_eq (c : Dev nD) (x3 : (⟨Cert.ReferenceIdeal.S128, .f32⟩ : BufTy).Contents (Elt Ideal))
    (h30 : V c main_v30 = shapeCast S1x128 x3 shapeCasts_S128_S1x128) (t : Fin cfg0.N) :
    (dat0 V c).flushed 3 t = ((cfg0.win 3).blk t).view.read (Elt Ideal) (val_main_v33 (F := Ideal) (V c main_arg0) (V c main_arg2) x3) := by
  show (cfg0.win 3).cut (grid0.coords t) ((dat0 V c).after 3 t) = _
  rw [after0_3]
  unfold out0_3
  rw [View.canon_unit_zero zeroOffsets]
  simp only [View.ld_unit_zero (S := S5000x256) zeroOffsets, View.ld_unit_zero (S := S256x128) zeroOffsets, View.ld_unit_zero (S := S1x128) zeroOffsets]
  obtain ⟨e0, e1, e2, e3, e4, e5, e6, e7⟩ := blockIndex t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (ix2 p q)
    = val_main_v33 (F := Ideal) (V c main_arg0) (V c main_arg2) x3 (((cfg0.win 3).blk t).view.emb (ix2 p q))
  refine (payload_apply (iblk0 V c 0 t) (iblk0 V c 1 t) (iblk0 V c 2 t) p q).trans ?_
  rw [val_main_v33_apply, val_main_v30_apply, val_main_v32_apply, val_main_v31_apply]
  refine congrArg₂ (· + ·) (Finset.sum_congr rfl fun k _ => congrArg₂ (· * ·) ?_ ?_) ?_
  · show V c main_arg0 (((cfg0.win 0).blk t).view.emb (ix2 p k)) = _
    refine congrArg _ (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 256 + 1 * k.val = k.val; omega
  · show V c main_arg2 (((cfg0.win 1).blk t).view.emb (ix2 k q)) = _
    refine congrArg _ (funext fun a => Fin.ext ?_)
    match a with
    | ⟨0, _⟩ => show win0_1.index t (0 : Fin 2) * 256 + 1 * k.val = k.val; omega
    | ⟨1, _⟩ => show win0_1.index t (1 : Fin 2) * 128 + 1 * q.val = win0_3.index t (1 : Fin 2) * 128 + 1 * q.val; omega
  · show V c main_v30 (((cfg0.win 2).blk t).view.emb (ix2 (0 : Fin 1) q)) = _
    rw [h30]
    have hrow : ((cfg0.win 2).blk t).view.emb (ix2 (0 : Fin 1) q) = ix2 (0 : Fin 1) q := funext fun a => Fin.ext (by
      match a with
      | ⟨0, _⟩ => show win0_2.index t (0 : Fin 2) * 1 + 1 * 0 = 0; omega
      | ⟨1, _⟩ => show win0_2.index t (1 : Fin 2) * 128 + 1 * q.val = q.val; omega)
    rw [hrow]
    refine (shapeCast_a_1a_apply x3 shapeCasts_S128_S1x128 (0 : Fin 1) q).trans ?_
    refine congrArg x3 (funext fun a => Fin.ext ?_)
    match a with
    | ⟨0, _⟩ => show q.val = win0_3.index t (1 : Fin 2) * 128 + 1 * q.val; omega

/-- After region 0 its output array is the affine map of the reference: row `i` of the input times the weight matrix, plus
    the bias row, whenever the region's third operand is the bias vector laid out as one row. -/
theorem value (c : Dev nD) (x3 : (⟨Cert.ReferenceIdeal.S128, .f32⟩ : BufTy).Contents (Elt Ideal))
    (h30 : V c main_v30 = shapeCast S1x128 x3 shapeCasts_S128_S1x128) :
    (dat0 V c).arrAt 3 cfg0.N = val_main_v33 (F := Ideal) (V c main_arg0) (V c main_arg2) x3 :=
  (dat0 V c).arrAt_eq_of_cover 3 _ (fun t _ => flushed_eq V c x3 h30 t) outBlocks_cover

end Cert.KernelIdeal.Region0

end
-- ==== Proof.KRegion1.lean ====
import proofs.«171773_j83657372991833_1_alg».proof.Proof.Gen.KernelIdeal.Frame
import proofs.«171773_j83657372991833_1_alg».proof.Proof.RefRead
import Idealize.ShloMosaic.Lib.Pipeline.Value
import Idealize.ShloMosaic.Lib.ValueIdx
import Idealize.ShloMosaic.PureOps.Ideal.Laws

/-!
Kernel region 1: a hidden array times a 128 × 128 weight matrix.

The region walks the 100000 rows in twenty blocks of 5000. At a point it loads its block of rows and the whole weight
matrix, narrows both to bf16, multiplies them into an f32 accumulator that starts at zero, and stores the 5000 × 128
product as its output block. Over the extended reals the narrowing is the identity and the product into zero is the
finite sum `Σ_k a[p,k]·w[k,q]` over the 128 contracted positions. Row `p` of block `t` is row `5000·t + p` of the array, so
the block's entry `(p, q)` is the entry `(5000·t + p, q)` of the reference's product of the two whole arrays, the same
sum term by term; and the twenty blocks tile the rows.
-/

set_option maxRecDepth 16384

noncomputable section

namespace Cert.KernelIdeal.Region1

open Cert.KernelIdeal Cert.KernelIdeal.Gen
open Idealize.ShloMosaic Idealize.ShloMosaic.TcCoe Idealize.SL.Sem
open Idealize.ShloMosaic.Pipeline (Dat Cfg Window)
open Cert.ReferenceIdeal.ReadP

/-! ## The kernel's product at an index -/

/-- The left operand's index for output entry `j` and contracted position `k`: row of `j`, column `k`. -/
abbrev rowOf (j : S5000x128.Idx) (k : Fin 128) : S5000x128.Idx := fun a => match a with
  | ⟨0, _⟩ => ⟨(j 0).val, (j 0).isLt⟩
  | ⟨1, _⟩ => ⟨k.val, k.isLt⟩
/-- The right operand's index: row `k`, column of `j`. -/
abbrev colOf (j : S5000x128.Idx) (k : Fin 128) : S128x128.Idx := fun a => match a with
  | ⟨0, _⟩ => ⟨k.val, k.isLt⟩
  | ⟨1, _⟩ => ⟨(j 1).val, (j 1).isLt⟩

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's arithmetic on a block of rows `a` and the weight matrix `w`: both narrowed to bf16 and multiplied into a
    zero f32 accumulator. -/
def blockProduct (a : Vec Ideal S5000x128 .f32) (w : Vec Ideal S128x128 .f32) : FVec Ideal S5000x128 .f32 :=
  matmul dot_S5000x128_S128x128_S5000x128_1_0_0_1_n_n none (truncf .bf16 (shapeCast S5000x128 a shapeCasts_S5000x128_S5000x128) bitsLt_bf16_f32) (truncf .bf16 w bitsLt_bf16_f32) (constant S5000x128 .f32 0x00000000#32)

/-- Over the extended reals it is the plain sum over the 128 contracted positions. -/
theorem blockProduct_apply (a : Vec Ideal S5000x128 .f32) (w : Vec Ideal S128x128 .f32) (j : S5000x128.Idx) :
    blockProduct a w j = ∑ k : Fin 128, a (rowOf j k) * w (colOf j k) := by
  unfold blockProduct
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = rowOf j k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx j ((ValueIdx.contrEquiv1 dot_S5000x128_S128x128_S5000x128_1_0_0_1_n_n 128 rfl rfl).symm k) = colOf j k := funext fun a => Fin.ext (by
    match a with
    | ⟨0, _⟩ => exact (rhs_axis0 _ _).trans hk
    | ⟨1, _⟩ => exact rhs_axis1 _ _)
  rw [el, er, ValueIdx.truncf_apply, ValueIdx.truncf_apply, shapeCast_self]

/-- The region's stored payload is that product of its two loaded blocks, so it is that sum. -/
theorem payload_apply (a : Vec Ideal S5000x128 .f32) (w : Vec Ideal S128x128 .f32) (j : S5000x128.Idx) :
    k1_pay1 (F := Ideal) a w j = ∑ k : Fin 128, a (rowOf j k) * w (colOf j k) :=
  blockProduct_apply a w j

/-! ## The reference's product at an index -/

/-- The reference's `dot_general` of any two arrays of these shapes, at an index, is the sum over the 128 contracted
    positions of left entry (row, k) times right entry (k, column). -/
theorem ref_product_apply (y : (⟨Cert.ReferenceIdeal.S100000x128, .f32⟩ : BufTy).Contents (Elt Ideal)) (w : (⟨Cert.ReferenceIdeal.S128x128, .f32⟩ : BufTy).Contents (Elt Ideal))
    (i : Cert.ReferenceIdeal.S100000x128.Idx) :
    Host.dotGeneral (F := Ideal) (φ₁ := .f32) (φ₂ := .f32) Cert.ReferenceIdeal.dot_S100000x128_S128x128_S100000x128_1_0_0_1_n_n none y w i = ∑ k : Fin 128, y (lidx_main_v34 i k) * w (ridx_main_v34 i k) := by
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx i ((ValueIdx.contrEquiv1 Cert.ReferenceIdeal.dot_S100000x128_S128x128_S100000x128_1_0_0_1_n_n 128 rfl rfl).symm k) = lidx_main_v34 i k := funext fun a => Fin.ext (by
    match a with
    | ⟨0, _⟩ => exact lhs_main_v34_0 _ _
    | ⟨1, _⟩ => exact (lhs_main_v34_1 _ _).trans hk)
  have er : Cert.ReferenceIdeal.dot_S100000x128_S128x128_S100000x128_1_0_0_1_n_n.rhsIdx i ((ValueIdx.contrEquiv1 Cert.ReferenceIdeal.dot_S100000x128_S128x128_S100000x128_1_0_0_1_n_n 128 rfl rfl).symm k) = ridx_main_v34 i k := funext fun a => Fin.ext (by
    match a with
    | ⟨0, _⟩ => exact (rhs_main_v34_0 _ _).trans hk
    | ⟨1, _⟩ => exact rhs_main_v34_1 _ _)
  rw [el, er]

/-! ## The windows -/

theorem origin2 : (![0, 0] : Fin 2 → Nat) = fun _ => 0 := funext fun a => by fin_cases a <;> rfl

/-- Region 1's printed index maps over its grid: the input rows move with the output rows, block by block, every
    other block index is zero, and the output's row-block index is the point's number. -/
theorem index_facts1 : ∀ t : Fin cfg1.N, win1_0.index t (0 : Fin 2) = win1_2.index t (0 : Fin 2) ∧ win1_0.index t (1 : Fin 2) = 0
    ∧ win1_1.index t (0 : Fin 2) = 0 ∧ win1_1.index t (1 : Fin 2) = 0 ∧ win1_2.index t (1 : Fin 2) = 0 :=
  (by decide +kernel : ∀ t : Fin grid1.N, _)

/-- Every one of the twenty row blocks is some point's. -/
theorem index_onto1 : ∀ q : Fin 20, ∃ t : Fin cfg1.N, win1_2.index t = ![q.val, 0] :=
  (by decide +kernel : ∀ q : Fin 20, ∃ t : Fin grid1.N, win1_2.index t = ![q.val, 0])

variable (V : (c : Dev nD) → (b : Ref sig .tc) → Buf (Elt Ideal) ((c : Thread nD τ).loc b))

/-! ## Region 1 -/

/-- WHAT POINT `t` OF REGION 1 WRITES BACK is block `t` of the product of the region's two input arrays: a row of the
    block is row `5000·t + p` of the array on both sides, and the weight matrix is staged whole. -/
theorem flushed1 (c : Dev nD) (t : Fin cfg1.N) :
    (dat1 V c).flushed 2 t = ((cfg1.win 2).blk t).view.read (Elt Ideal)
      (Host.dotGeneral (F := Ideal) (φ₁ := .f32) (φ₂ := .f32) Cert.ReferenceIdeal.dot_S100000x128_S128x128_S100000x128_1_0_0_1_n_n none (V c main_v31) (V c main_arg4)) := by
  show (cfg1.win 2).cut (grid1.coords t) ((dat1 V c).after 2 t) = _
  rw [after1_2]
  unfold out1_2
  rw [View.canon_unit_zero origin2]
  simp only [View.ld_unit_zero (S := S5000x128) origin2, View.ld_unit_zero (S := S128x128) origin2]
  obtain ⟨e0, e1, e2, e3, e4⟩ := index_facts1 t
  funext j
  show k1_pay1 (F := Ideal) (iblk1 V c 0 t) (iblk1 V c 1 t) j
    = Host.dotGeneral (F := Ideal) (φ₁ := .f32) (φ₂ := .f32) Cert.ReferenceIdeal.dot_S100000x128_S128x128_S100000x128_1_0_0_1_n_n none (V c main_v31) (V c main_arg4) (((cfg1.win 2).blk t).view.emb j)
  refine (payload_apply (iblk1 V c 0 t) (iblk1 V c 1 t) j).trans ?_
  refine Eq.trans ?_ (ref_product_apply (V c main_v31) (V c main_arg4) (((cfg1.win 2).blk t).view.emb j)).symm
  refine Finset.sum_congr rfl fun k _ => congrArg₂ (· * ·) ?_ ?_
  · show V c main_v31 (((cfg1.win 0).blk t).view.emb (rowOf j k)) = V c main_v31 (lidx_main_v34 (((cfg1.win 2).blk t).view.emb j) k)
    refine congrArg _ (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  · show V c main_arg4 (((cfg1.win 1).blk t).view.emb (colOf j k)) = V c main_arg4 (ridx_main_v34 (((cfg1.win 2).blk t).view.emb j) k)
    refine congrArg _ (funext fun a => Fin.ext ?_)
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega

/-- An index of the output array is in point `t`'s block iff its row lies in the block's 5000 rows (the block spans all
    128 columns). -/
theorem mem_block1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v32).slice (win1_2.rect t)).set ↔ _
  rw [View.set_slice_whole, Rect.mem_set_unit]
  exact Iff.rfl

/-- The twenty blocks of 5000 rows tile the 100000 rows: row `r` is in block `r / 5000`. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := index_onto1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After region 1 its output array is the reference's matrix product of the region's two input arrays. -/
theorem value1 (c : Dev nD) :
    (dat1 V c).arrAt 2 cfg1.N = Host.dotGeneral (F := Ideal) (φ₁ := .f32) (φ₂ := .f32) Cert.ReferenceIdeal.dot_S100000x128_S128x128_S100000x128_1_0_0_1_n_n none (V c main_v31) (V c main_arg4) :=
  (dat1 V c).arrAt_eq_of_cover 2 _ (fun t _ => flushed1 V c t) (cover1)

end Cert.KernelIdeal.Region1

end
-- ==== Proof.KRegion2.lean ====
import proofs.«171773_j83657372991833_1_alg».proof.Proof.Gen.KernelIdeal.Frame
import proofs.«171773_j83657372991833_1_alg».proof.Proof.RefRead
import Idealize.ShloMosaic.Lib.Pipeline.Value
import Idealize.ShloMosaic.Lib.ValueIdx
import Idealize.ShloMosaic.PureOps.Ideal.Laws

/-!
Kernel region 2: a hidden array times a 128 × 128 weight matrix.

The region walks the 100000 rows in twenty blocks of 5000. At a point it loads its block of rows and the whole weight
matrix, narrows both to bf16, multiplies them into an f32 accumulator that starts at zero, and stores the 5000 × 128
product as its output block. Over the extended reals the narrowing is the identity and the product into zero is the
finite sum `Σ_k a[p,k]·w[k,q]` over the 128 contracted positions. Row `p` of block `t` is row `5000·t + p` of the array, so
the block's entry `(p, q)` is the entry `(5000·t + p, q)` of the reference's product of the two whole arrays, the same
sum term by term; and the twenty blocks tile the rows.
-/

set_option maxRecDepth 16384

noncomputable section

namespace Cert.KernelIdeal.Region2

open Cert.KernelIdeal Cert.KernelIdeal.Gen
open Idealize.ShloMosaic Idealize.ShloMosaic.TcCoe Idealize.SL.Sem
open Idealize.ShloMosaic.Pipeline (Dat Cfg Window)
open Cert.ReferenceIdeal.ReadP

/-! ## The kernel's product at an index -/

/-- The left operand's index for output entry `j` and contracted position `k`: row of `j`, column `k`. -/
abbrev rowOf (j : S5000x128.Idx) (k : Fin 128) : S5000x128.Idx := fun a => match a with
  | ⟨0, _⟩ => ⟨(j 0).val, (j 0).isLt⟩
  | ⟨1, _⟩ => ⟨k.val, k.isLt⟩
/-- The right operand's index: row `k`, column of `j`. -/
abbrev colOf (j : S5000x128.Idx) (k : Fin 128) : S128x128.Idx := fun a => match a with
  | ⟨0, _⟩ => ⟨k.val, k.isLt⟩
  | ⟨1, _⟩ => ⟨(j 1).val, (j 1).isLt⟩

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's arithmetic on a block of rows `a` and the weight matrix `w`: both narrowed to bf16 and multiplied into a
    zero f32 accumulator. -/
def blockProduct (a : Vec Ideal S5000x128 .f32) (w : Vec Ideal S128x128 .f32) : FVec Ideal S5000x128 .f32 :=
  matmul dot_S5000x128_S128x128_S5000x128_1_0_0_1_n_n none (truncf .bf16 (shapeCast S5000x128 a shapeCasts_S5000x128_S5000x128) bitsLt_bf16_f32) (truncf .bf16 w bitsLt_bf16_f32) (constant S5000x128 .f32 0x00000000#32)

/-- Over the extended reals it is the plain sum over the 128 contracted positions. -/
theorem blockProduct_apply (a : Vec Ideal S5000x128 .f32) (w : Vec Ideal S128x128 .f32) (j : S5000x128.Idx) :
    blockProduct a w j = ∑ k : Fin 128, a (rowOf j k) * w (colOf j k) := by
  unfold blockProduct
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = rowOf j k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx j ((ValueIdx.contrEquiv1 dot_S5000x128_S128x128_S5000x128_1_0_0_1_n_n 128 rfl rfl).symm k) = colOf j k := funext fun a => Fin.ext (by
    match a with
    | ⟨0, _⟩ => exact (rhs_axis0 _ _).trans hk
    | ⟨1, _⟩ => exact rhs_axis1 _ _)
  rw [el, er, ValueIdx.truncf_apply, ValueIdx.truncf_apply, shapeCast_self]

/-- The region's stored payload is that product of its two loaded blocks, so it is that sum. -/
theorem payload_apply (a : Vec Ideal S5000x128 .f32) (w : Vec Ideal S128x128 .f32) (j : S5000x128.Idx) :
    k2_pay1 (F := Ideal) a w j = ∑ k : Fin 128, a (rowOf j k) * w (colOf j k) :=
  blockProduct_apply a w j

/-! ## The reference's product at an index -/

/-- The reference's `dot_general` of any two arrays of these shapes, at an index, is the sum over the 128 contracted
    positions of left entry (row, k) times right entry (k, column). -/
theorem ref_product_apply (y : (⟨Cert.ReferenceIdeal.S100000x128, .f32⟩ : BufTy).Contents (Elt Ideal)) (w : (⟨Cert.ReferenceIdeal.S128x128, .f32⟩ : BufTy).Contents (Elt Ideal))
    (i : Cert.ReferenceIdeal.S100000x128.Idx) :
    Host.dotGeneral (F := Ideal) (φ₁ := .f32) (φ₂ := .f32) Cert.ReferenceIdeal.dot_S100000x128_S128x128_S100000x128_1_0_0_1_n_n none y w i = ∑ k : Fin 128, y (lidx_main_v34 i k) * w (ridx_main_v34 i k) := by
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx i ((ValueIdx.contrEquiv1 Cert.ReferenceIdeal.dot_S100000x128_S128x128_S100000x128_1_0_0_1_n_n 128 rfl rfl).symm k) = lidx_main_v34 i k := funext fun a => Fin.ext (by
    match a with
    | ⟨0, _⟩ => exact lhs_main_v34_0 _ _
    | ⟨1, _⟩ => exact (lhs_main_v34_1 _ _).trans hk)
  have er : Cert.ReferenceIdeal.dot_S100000x128_S128x128_S100000x128_1_0_0_1_n_n.rhsIdx i ((ValueIdx.contrEquiv1 Cert.ReferenceIdeal.dot_S100000x128_S128x128_S100000x128_1_0_0_1_n_n 128 rfl rfl).symm k) = ridx_main_v34 i k := funext fun a => Fin.ext (by
    match a with
    | ⟨0, _⟩ => exact (rhs_main_v34_0 _ _).trans hk
    | ⟨1, _⟩ => exact rhs_main_v34_1 _ _)
  rw [el, er]

/-! ## The windows -/

theorem origin2 : (![0, 0] : Fin 2 → Nat) = fun _ => 0 := funext fun a => by fin_cases a <;> rfl

/-- Region 2's printed index maps over its grid: the input rows move with the output rows, block by block, every
    other block index is zero, and the output's row-block index is the point's number. -/
theorem index_facts2 : ∀ t : Fin cfg2.N, win2_0.index t (0 : Fin 2) = win2_2.index t (0 : Fin 2) ∧ win2_0.index t (1 : Fin 2) = 0
    ∧ win2_1.index t (0 : Fin 2) = 0 ∧ win2_1.index t (1 : Fin 2) = 0 ∧ win2_2.index t (1 : Fin 2) = 0 :=
  (by decide +kernel : ∀ t : Fin grid2.N, _)

/-- Every one of the twenty row blocks is some point's. -/
theorem index_onto2 : ∀ q : Fin 20, ∃ t : Fin cfg2.N, win2_2.index t = ![q.val, 0] :=
  (by decide +kernel : ∀ q : Fin 20, ∃ t : Fin grid2.N, win2_2.index t = ![q.val, 0])

variable (V : (c : Dev nD) → (b : Ref sig .tc) → Buf (Elt Ideal) ((c : Thread nD τ).loc b))

/-! ## Region 2 -/

/-- WHAT POINT `t` OF REGION 1 WRITES BACK is block `t` of the product of the region's two input arrays: a row of the
    block is row `5000·t + p` of the array on both sides, and the weight matrix is staged whole. -/
theorem flushed2 (c : Dev nD) (t : Fin cfg2.N) :
    (dat2 V c).flushed 2 t = ((cfg2.win 2).blk t).view.read (Elt Ideal)
      (Host.dotGeneral (F := Ideal) (φ₁ := .f32) (φ₂ := .f32) Cert.ReferenceIdeal.dot_S100000x128_S128x128_S100000x128_1_0_0_1_n_n none (V c main_v49) (V c main_arg6)) := by
  show (cfg2.win 2).cut (grid2.coords t) ((dat2 V c).after 2 t) = _
  rw [after2_2]
  unfold out2_2
  rw [View.canon_unit_zero origin2]
  simp only [View.ld_unit_zero (S := S5000x128) origin2, View.ld_unit_zero (S := S128x128) origin2]
  obtain ⟨e0, e1, e2, e3, e4⟩ := index_facts2 t
  funext j
  show k2_pay1 (F := Ideal) (iblk2 V c 0 t) (iblk2 V c 1 t) j
    = Host.dotGeneral (F := Ideal) (φ₁ := .f32) (φ₂ := .f32) Cert.ReferenceIdeal.dot_S100000x128_S128x128_S100000x128_1_0_0_1_n_n none (V c main_v49) (V c main_arg6) (((cfg2.win 2).blk t).view.emb j)
  refine (payload_apply (iblk2 V c 0 t) (iblk2 V c 1 t) j).trans ?_
  refine Eq.trans ?_ (ref_product_apply (V c main_v49) (V c main_arg6) (((cfg2.win 2).blk t).view.emb j)).symm
  refine Finset.sum_congr rfl fun k _ => congrArg₂ (· * ·) ?_ ?_
  · show V c main_v49 (((cfg2.win 0).blk t).view.emb (rowOf j k)) = V c main_v49 (lidx_main_v34 (((cfg2.win 2).blk t).view.emb j) k)
    refine congrArg _ (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  · show V c main_arg6 (((cfg2.win 1).blk t).view.emb (colOf j k)) = V c main_arg6 (ridx_main_v34 (((cfg2.win 2).blk t).view.emb j) k)
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega

/-- An index of the output array is in point `t`'s block iff its row lies in the block's 5000 rows (the block spans all
    128 columns). -/
theorem mem_block2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v50).slice (win2_2.rect t)).set ↔ _
  rw [View.set_slice_whole, Rect.mem_set_unit]
  exact Iff.rfl

/-- The twenty blocks of 5000 rows tile the 100000 rows: row `r` is in block `r / 5000`. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := index_onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After region 2 its output array is the reference's matrix product of the region's two input arrays. -/
theorem value2 (c : Dev nD) :
    (dat2 V c).arrAt 2 cfg2.N = Host.dotGeneral (F := Ideal) (φ₁ := .f32) (φ₂ := .f32) Cert.ReferenceIdeal.dot_S100000x128_S128x128_S100000x128_1_0_0_1_n_n none (V c main_v49) (V c main_arg6) :=
  (dat2 V c).arrAt_eq_of_cover 2 _ (fun t _ => flushed2 V c t) (cover2)

end Cert.KernelIdeal.Region2

end
-- ==== Proof.KRegion3.lean ====
import proofs.«171773_j83657372991833_1_alg».proof.Proof.Gen.KernelIdeal.Frame
import proofs.«171773_j83657372991833_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen
open Idealize.ShloMosaic Idealize.ShloMosaic.TcCoe Idealize.SL.Sem
open Idealize.ShloMosaic.Pipeline (Dat Cfg Window)
open Idealize.ShloMosaic.ValueIdx
open Cert.ReferenceIdeal.ReadP

variable (V : (c : Dev nD) → (b : Ref sig .tc) → Buf (Elt Ideal) ((c : Thread nD τ).loc b))

/-! ## The keepdims column forms at an index -/

section Keepdims
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Keepdims

/-! ## One row's log-softmax, the closed form both sides are read to -/

/-- One row's log-softmax at column `q`: the row less its maximum (folded from `b`), less the logarithm of the sum of
    the exponentials of the row less its maximum. -/
def rowLogSoftmax (b : EReal) (s : Fin 40 → EReal) (q : Fin 40) : EReal :=
  (s q - (Finset.univ : Finset (Fin 40)).fold max b s)
    - Ideal.log (∑ k : Fin 40, Ideal.exp (s k - (Finset.univ : Finset (Fin 40)).fold max b s))

/-! ## The kernel's payload at an index -/

/-- The block's row maxima, spread back over the columns. -/
def blockRowMax (v : FVec Ideal S5000x40 .f32) : FVec Ideal S5000x40 .f32 :=
  broadcastTo S5000x40 (shapeCast S5000x1
    (multiReduction .maximumf [1] S5000 v 0xFF800000#32 reduces_S5000x40_S5000 (.inl rfl) rfl) shapeCasts_S5000_S5000x1)
    broadcasts_S5000x1_S5000x40

/-- The block less its row maxima. -/
def blockShift (v : FVec Ideal S5000x40 .f32) : FVec Ideal S5000x40 .f32 := subf v (blockRowMax v)

/-- The logarithms of the row sums of the exponentials of the shifted block, spread back over the columns. -/
def blockLogSum (v : FVec Ideal S5000x40 .f32) : FVec Ideal S5000x40 .f32 :=
  broadcastTo S5000x40 (log (shapeCast S5000x1
    (multiReduction .add [1] S5000 (exp (blockShift v)) 0x00000000#32 reduces_S5000x40_S5000 (.inl rfl) rfl) shapeCasts_S5000_S5000x1))
    broadcasts_S5000x1_S5000x40

/-- The kernel's logits on a block: the product of the row block and the weights, plus the bias row on every row. -/
def blockLogits (x0 : Vec Ideal S5000x128 .f32) (x1 : Vec Ideal S128x40 .f32) (x2 : Vec Ideal S1x40 .f32) : FVec Ideal S5000x40 .f32 :=
  addf (matmul dot_S5000x128_S128x40_S5000x40_1_0_0_1_n_n none
      (truncf .bf16 (shapeCast S5000x128 x0 shapeCasts_S5000x128_S5000x128) bitsLt_bf16_f32)
      (truncf .bf16 x1 bitsLt_bf16_f32) (constant S5000x40 .f32 0x00000000#32))
    (broadcastTo S5000x40 (shapeCast S1x40 x2 shapeCasts_S1x40_S1x40) broadcasts_S1x40_S5000x40)

/-- The payload is the shifted logits less the logarithm of their exponentials' row sums. -/
theorem pay_eq (x0 : Vec Ideal S5000x128 .f32) (x1 : Vec Ideal S128x40 .f32) (x2 : Vec Ideal S1x40 .f32) :
    k3_pay1 (F := Ideal) x0 x1 x2
      = subf (blockShift (blockLogits x0 x1 x2)) (blockLogSum (blockLogits x0 x1 x2)) := rfl

/-- Row `p` of the block with column `k` put back is `(p, k)`. -/
theorem block_lift (h : S5000x40.Reduces [1] S5000) (p : Fin 5000) (k : Fin (S5000x40.size 1)) :
    h.lift (ix1 p) k = ix2 p (⟨k.val, k.isLt⟩ : Fin 40) := by
  funext c; apply Fin.ext
  fin_cases c <;> rfl

/-- The block's row maximum, at any column of row `p`: the fold of `max` over the row from the accumulator's value. -/
theorem blockRowMax_apply (v : FVec Ideal S5000x40 .f32) (p : Fin 5000) (q : Fin 40) :
    blockRowMax v (ix2 p q)
      = (Finset.univ : Finset (Fin 40)).fold max (Ideal.ofBits .f32 0xFF800000#32) (fun k => v (ix2 p k)) := by
  unfold blockRowMax
  refine (broadcastTo_a1_ab_apply _ broadcasts_S5000x1_S5000x40 p q).trans ?_
  refine (shapeCast_a_a1_apply _ shapeCasts_S5000_S5000x1 p 0).trans ?_
  refine (Ideal.multiReduction_maximumf_single v 0xFF800000#32 reduces_S5000x40_S5000 (.inl rfl) rfl (ix1 p)).trans ?_
  have hf : (v ∘ reduces_S5000x40_S5000.lift (ix1 p)) = fun k : Fin 40 => v (ix2 p k) :=
    funext fun k => congrArg v (block_lift reduces_S5000x40_S5000 p k)
  exact congrArg (fun f => Finset.fold max (Ideal.ofBits .f32 0xFF800000#32) f (Finset.univ : Finset (Fin 40))) hf

/-- The logarithm of the row sum, at any column of row `p`. -/
theorem blockLogSum_apply (v : FVec Ideal S5000x40 .f32) (p : Fin 5000) (q : Fin 40) :
    blockLogSum v (ix2 p q) = Ideal.log (∑ k : Fin 40, Ideal.exp (blockShift v (ix2 p k))) := by
  unfold blockLogSum
  refine (broadcastTo_a1_ab_apply _ broadcasts_S5000x1_S5000x40 p q).trans ?_
  show Ideal.log (shapeCast S5000x1 _ shapeCasts_S5000_S5000x1 (ix2 p (0 : Fin 1))) = _
  refine congrArg Ideal.log ?_
  refine (shapeCast_a_a1_apply _ shapeCasts_S5000_S5000x1 p 0).trans ?_
  refine (Ideal.multiReduction_add_single (exp (blockShift v)) 0x00000000#32 reduces_S5000x40_S5000 (.inl rfl) rfl (ix1 p)).trans ?_
  exact Finset.sum_congr rfl fun k _ => congrArg (exp (blockShift v)) (block_lift reduces_S5000x40_S5000 p k)

/-- The payload's tail at `(p, q)` is the log-softmax of row `p` of the logits at column `q`. -/
theorem blockTail_apply (v : FVec Ideal S5000x40 .f32) (p : Fin 5000) (q : Fin 40) :
    subf (blockShift v) (blockLogSum v) (ix2 p q)
      = rowLogSoftmax (Ideal.ofBits .f32 0xFF800000#32) (fun k => v (ix2 p k)) q := by
  have hs : ∀ k : Fin 40, blockShift v (ix2 p k)
      = v (ix2 p k) - (Finset.univ : Finset (Fin 40)).fold max (Ideal.ofBits .f32 0xFF800000#32) (fun k => v (ix2 p k)) := fun k => by
    show v (ix2 p k) - blockRowMax v (ix2 p k) = _
    rw [blockRowMax_apply]
  show blockShift v (ix2 p q) - blockLogSum v (ix2 p q) = _
  rw [blockLogSum_apply, hs q]
  unfold rowLogSoftmax
  refine congrArg (fun x => _ - Ideal.log x) (Finset.sum_congr rfl fun k _ => ?_)
  rw [hs k]

/-! ## The kernel's logits at an index -/

theorem lhs_block_0 (i : S5000x40.Idx) (q : dot_S5000x128_S128x40_S5000x40_1_0_0_1_n_n.contr.Idx) :
    (dot_S5000x128_S128x40_S5000x40_1_0_0_1_n_n.lhsIdx i q 0).val = (i 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
theorem lhs_block_1 (i : S5000x40.Idx) (q : dot_S5000x128_S128x40_S5000x40_1_0_0_1_n_n.contr.Idx) :
    (dot_S5000x128_S128x40_S5000x40_1_0_0_1_n_n.lhsIdx i q 1).val = (q ⟨0, by decide⟩).val :=
  dot_S5000x128_S128x40_S5000x40_1_0_0_1_n_n.lhsIdx_val_of_single rfl i q
theorem rhs_block_0 (i : S5000x40.Idx) (q : dot_S5000x128_S128x40_S5000x40_1_0_0_1_n_n.contr.Idx) :
    (dot_S5000x128_S128x40_S5000x40_1_0_0_1_n_n.rhsIdx i q 0).val = (q ⟨0, by decide⟩).val :=
  dot_S5000x128_S128x40_S5000x40_1_0_0_1_n_n.rhsIdx_val_of_single rfl i q
theorem rhs_block_1 (i : S5000x40.Idx) (q : dot_S5000x128_S128x40_S5000x40_1_0_0_1_n_n.contr.Idx) :
    (dot_S5000x128_S128x40_S5000x40_1_0_0_1_n_n.rhsIdx i q 1).val = (i 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- The product into the zero accumulator at `(p, k)`: row `p` of the block against column `k` of the weights. -/
theorem blockProduct_apply (l : FVec Ideal S5000x128 .bf16) (r : FVec Ideal S128x40 .bf16) (p : Fin 5000) (k : Fin 40) :
    matmul dot_S5000x128_S128x40_S5000x40_1_0_0_1_n_n none l r (constant S5000x40 .f32 0x00000000#32) (ix2 p k)
      = ∑ κ : Fin 128, l (ix2 p κ) * r (ix2 κ k) := by
  refine (Ideal.matmul_constant_zero_apply dot_S5000x128_S128x40_S5000x40_1_0_0_1_n_n none l r (ix2 p k)).trans ?_
  rw [← Equiv.sum_comp (ValueIdx.contrEquiv1 dot_S5000x128_S128x40_S5000x40_1_0_0_1_n_n 128 rfl rfl).symm]
  refine Finset.sum_congr rfl fun κ _ => ?_
  have hκ := ValueIdx.contrEquiv1_symm_val dot_S5000x128_S128x40_S5000x40_1_0_0_1_n_n 128 rfl rfl κ
  have el : dot_S5000x128_S128x40_S5000x40_1_0_0_1_n_n.lhsIdx (ix2 p k) ((ValueIdx.contrEquiv1 dot_S5000x128_S128x40_S5000x40_1_0_0_1_n_n 128 rfl rfl).symm κ) = ix2 p κ := funext fun a => Fin.ext (by
    match a with
    | ⟨0, _⟩ => exact lhs_block_0 _ _
    | ⟨1, _⟩ => exact (lhs_block_1 _ _).trans hκ)
  have er : dot_S5000x128_S128x40_S5000x40_1_0_0_1_n_n.rhsIdx (ix2 p k) ((ValueIdx.contrEquiv1 dot_S5000x128_S128x40_S5000x40_1_0_0_1_n_n 128 rfl rfl).symm κ) = ix2 κ k := funext fun a => Fin.ext (by
    match a with
    | ⟨0, _⟩ => exact (rhs_block_0 _ _).trans hκ
    | ⟨1, _⟩ => exact rhs_block_1 _ _)
  rw [el, er]

/-- The logits at `(p, k)`: row `p` of the block against column `k` of the weights, plus the bias row at `k`. -/
theorem blockLogits_apply (x0 : Vec Ideal S5000x128 .f32) (x1 : Vec Ideal S128x40 .f32) (x2 : Vec Ideal S1x40 .f32) (p : Fin 5000) (k : Fin 40) :
    blockLogits x0 x1 x2 (ix2 p k) = (∑ κ : Fin 128, x0 (ix2 p κ) * x1 (ix2 κ k)) + x2 (ix2 (0 : Fin 1) k) := by
  unfold blockLogits
  refine congrArg₂ (fun a b : EReal => a + b) ?_ ?_
  · refine (blockProduct_apply _ _ p k).trans ?_
    refine Finset.sum_congr rfl fun κ _ => ?_
    show shapeCast S5000x128 x0 shapeCasts_S5000x128_S5000x128 (ix2 p κ) * x1 (ix2 κ k) = _
    rw [shapeCast_self]
  · refine (broadcastTo_1b_ab_apply _ broadcasts_S1x40_S5000x40 p k).trans ?_
    rw [shapeCast_self]

/-- The reference's row-wise log-softmax of a logit array `z`: subtract the row maximum, then subtract the logarithm of the
    row's sum of exponentials — spelt with the reference's own operations, in its order. -/
def logSoftmaxRows (z : (⟨Cert.ReferenceIdeal.S100000x40, .f32⟩ : BufTy).Contents (Elt Ideal)) :
    (⟨Cert.ReferenceIdeal.S100000x40, .f32⟩ : BufTy).Contents (Elt Ideal) :=
  let rowmax := maximumf (F := Ideal) (broadcastInDim Cert.ReferenceIdeal.S100000 ![] Cert.ReferenceIdeal.Gen.bcast_S_S100000 (constant (F := Ideal) Cert.ReferenceIdeal.S_ .f32 0xFF800000#32))
    (Host.reduce (FloatOps.maximumf (F := Ideal)) z (constant (F := Ideal) Cert.ReferenceIdeal.S_ .f32 0xFF800000#32) Cert.ReferenceIdeal.Gen.reducesTo_S100000x40_S100000_d1 Cert.ReferenceIdeal.Gen.h_S_)
  let shifted := subf (F := Ideal) z (broadcastInDim Cert.ReferenceIdeal.S100000x40 ![0, 1] Cert.ReferenceIdeal.Gen.bcast_S100000x1_S100000x40_0_1
    (broadcastInDim Cert.ReferenceIdeal.S100000x1 ![0] Cert.ReferenceIdeal.Gen.bcast_S100000_S100000x1_0 rowmax))
  let total := Host.reduceAdd (F := Ideal) (Host.exp (F := Ideal) shifted) (constant (F := Ideal) Cert.ReferenceIdeal.S_ .f32 0x00000000#32) Cert.ReferenceIdeal.Gen.reducesTo_S100000x40_S100000_d1 Cert.ReferenceIdeal.Gen.h_S_
  subf (F := Ideal) shifted (broadcastInDim Cert.ReferenceIdeal.S100000x40 ![0, 1] Cert.ReferenceIdeal.Gen.bcast_S100000x1_S100000x40_0_1
    (Host.log (F := Ideal) (broadcastInDim Cert.ReferenceIdeal.S100000x1 ![0] Cert.ReferenceIdeal.Gen.bcast_S100000_S100000x1_0 total)))

/-! ## The reference's log-softmax at an index -/

/-- A column `[a, 1]` spread over `[a, b]` reads, at `(r, q)`, the column at `r`. -/
theorem spreadColumn_apply (y : Cert.ReferenceIdeal.S100000x1.Idx → EReal) (r : Fin 100000) (q : Fin 40) :
    broadcastInDim Cert.ReferenceIdeal.S100000x40 ![0, 1] Cert.ReferenceIdeal.Gen.bcast_S100000x1_S100000x40_0_1 y (ix2 r q)
      = y (ix2 r (0 : Fin 1)) :=
  broadcastInDim_apply _ Cert.ReferenceIdeal.Gen.bcast_S100000x1_S100000x40_0_1 y (ix2 r q) (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl])

/-- A vector `[a]` kept as a column `[a, 1]` reads, at `(r, u)`, the vector at `r`. -/
theorem keepColumn_apply (y : Cert.ReferenceIdeal.S100000.Idx → EReal) (r : Fin 100000) (u : Fin 1) :
    broadcastInDim Cert.ReferenceIdeal.S100000x1 ![0] Cert.ReferenceIdeal.Gen.bcast_S100000_S100000x1_0 y (ix2 r u) = y (ix1 r) :=
  broadcastInDim_apply _ Cert.ReferenceIdeal.Gen.bcast_S100000_S100000x1_0 y (ix2 r u) (ix1 r) (fun a => match a with
    | ⟨0, _⟩ => by show r.val = if (100000 : Nat) = 1 then 0 else r.val; rw [if_neg (by decide)])

/-- A scalar spread over `[a]` reads the scalar everywhere. -/
theorem spreadScalar_apply (y : Cert.ReferenceIdeal.S_.Idx → EReal) (r : Fin 100000) :
    broadcastInDim Cert.ReferenceIdeal.S100000 ![] Cert.ReferenceIdeal.Gen.bcast_S_S100000 y (ix1 r) = y ix0 :=
  broadcastInDim_apply _ Cert.ReferenceIdeal.Gen.bcast_S_S100000 y (ix1 r) ix0 (fun a => a.elim0)

/-- The array's row maxima as the reference takes them (the larger of −∞ and the row's fold), spread back over the columns. -/
def refRowMax (z : Cert.ReferenceIdeal.S100000x40.Idx → EReal) : Cert.ReferenceIdeal.S100000x40.Idx → EReal :=
  broadcastInDim Cert.ReferenceIdeal.S100000x40 ![0, 1] Cert.ReferenceIdeal.Gen.bcast_S100000x1_S100000x40_0_1
    (broadcastInDim Cert.ReferenceIdeal.S100000x1 ![0] Cert.ReferenceIdeal.Gen.bcast_S100000_S100000x1_0
      (maximumf (F := Ideal) (φ := .f32) (broadcastInDim Cert.ReferenceIdeal.S100000 ![] Cert.ReferenceIdeal.Gen.bcast_S_S100000 (constant (F := Ideal) Cert.ReferenceIdeal.S_ .f32 0xFF800000#32))
        (Host.reduce FloatOps.maximumf z (constant (F := Ideal) Cert.ReferenceIdeal.S_ .f32 0xFF800000#32) Cert.ReferenceIdeal.Gen.reducesTo_S100000x40_S100000_d1 Cert.ReferenceIdeal.Gen.h_S_)))

/-- The array less its row maxima. -/
def refShift (z : Cert.ReferenceIdeal.S100000x40.Idx → EReal) : Cert.ReferenceIdeal.S100000x40.Idx → EReal :=
  subf (F := Ideal) (φ := .f32) z (refRowMax z)

/-- The logarithms of the row sums of the exponentials of the shifted array, spread back over the columns. -/
def refLogSum (z : Cert.ReferenceIdeal.S100000x40.Idx → EReal) : Cert.ReferenceIdeal.S100000x40.Idx → EReal :=
  broadcastInDim Cert.ReferenceIdeal.S100000x40 ![0, 1] Cert.ReferenceIdeal.Gen.bcast_S100000x1_S100000x40_0_1
    (Host.log (F := Ideal) (φ := .f32) (broadcastInDim Cert.ReferenceIdeal.S100000x1 ![0] Cert.ReferenceIdeal.Gen.bcast_S100000_S100000x1_0
      (Host.reduceAdd (F := Ideal) (φ := .f32) (Host.exp (F := Ideal) (φ := .f32) (refShift z)) (constant (F := Ideal) Cert.ReferenceIdeal.S_ .f32 0x00000000#32) Cert.ReferenceIdeal.Gen.reducesTo_S100000x40_S100000_d1 Cert.ReferenceIdeal.Gen.h_S_)))

/-- The reference's tail is the shifted array less the logarithm of its exponentials' row sums. -/
theorem logSoftmaxRows_eq (z : (⟨Cert.ReferenceIdeal.S100000x40, .f32⟩ : BufTy).Contents (Elt Ideal)) :
    logSoftmaxRows z = subf (F := Ideal) (φ := .f32) (refShift z) (refLogSum z) := rfl

/-- Row `r` of the array with column `k` put back is `(r, k)`. -/
theorem ref_lift (h : Cert.ReferenceIdeal.S100000x40.Reduces [1] Cert.ReferenceIdeal.S100000) (r : Fin 100000) (k : Fin (Cert.ReferenceIdeal.S100000x40.size 1)) :
    h.lift (ix1 r) k = ix2 r (⟨k.val, k.isLt⟩ : Fin 40) := by
  funext c; apply Fin.ext
  fin_cases c <;> rfl

theorem ref_reduces : Cert.ReferenceIdeal.S100000x40.Reduces [1] Cert.ReferenceIdeal.S100000 := by decide

/-- The larger of a bound and a fold of `max` from that bound is the fold. -/
theorem max_fold_max (b : EReal) (s : Fin 40 → EReal) :
    max b ((Finset.univ : Finset (Fin 40)).fold max b s) = (Finset.univ : Finset (Fin 40)).fold max b s :=
  max_eq_right (Finset.le_fold_max b |>.mpr (Or.inl le_rfl))

/-- The reference's row maximum, at any column of row `r`: the fold of `max` over the row from −∞'s value. -/
theorem refRowMax_apply (z : Cert.ReferenceIdeal.S100000x40.Idx → EReal) (r : Fin 100000) (q : Fin 40) :
    refRowMax z (ix2 r q)
      = (Finset.univ : Finset (Fin 40)).fold max (Ideal.ofBits .f32 0xFF800000#32) (fun k => z (ix2 r k)) := by
  have hf : (z ∘ ref_reduces.lift (ix1 r)) = fun k : Fin 40 => z (ix2 r k) :=
    funext fun k => congrArg z (ref_lift ref_reduces r k)
  have hred : Host.reduce (FloatOps.maximumf (F := Ideal) (φ := .f32)) z (constant (F := Ideal) Cert.ReferenceIdeal.S_ .f32 0xFF800000#32)
        Cert.ReferenceIdeal.Gen.reducesTo_S100000x40_S100000_d1 Cert.ReferenceIdeal.Gen.h_S_ (ix1 r)
      = (Finset.univ : Finset (Fin 40)).fold max (Ideal.ofBits .f32 0xFF800000#32) (fun k => z (ix2 r k)) := by
    refine (Host.reduce_eq_fold_single (FloatOps.maximumf (F := Ideal) (φ := .f32)) z _
      Cert.ReferenceIdeal.Gen.reducesTo_S100000x40_S100000_d1 ref_reduces Cert.ReferenceIdeal.Gen.h_S_ (ix1 r)).trans ?_
    exact congrArg (fun f => Finset.fold max (Ideal.ofBits .f32 0xFF800000#32) f (Finset.univ : Finset (Fin 40))) hf
  unfold refRowMax
  refine (spreadColumn_apply _ r q).trans ?_
  refine (keepColumn_apply _ r 0).trans ?_
  refine (maximumf_apply (s := Cert.ReferenceIdeal.S100000) (φ := .f32) _ _ (ix1 r)).trans ?_
  refine (congrArg₂ (fun a b : EReal => max a b) (spreadScalar_apply _ r) hred).trans ?_
  exact max_fold_max _ _

/-- The host's pointwise logarithm and exponential at an index. -/
theorem hostLog_apply {s : Shape} (v : FVec Ideal s .f32) (i : s.Idx) : Host.log (F := Ideal) v i = Ideal.log (v i) := rfl
theorem hostExp_apply {s : Shape} (v : FVec Ideal s .f32) (i : s.Idx) : Host.exp (F := Ideal) v i = Ideal.exp (v i) := rfl

/-- The reference's row sum of a float array from the zero word: the sum over the row. -/
theorem refRowSum_apply (w : FVec Ideal Cert.ReferenceIdeal.S100000x40 .f32) (r : Fin 100000) :
    Host.reduceAdd (F := Ideal) w (constant (F := Ideal) Cert.ReferenceIdeal.S_ .f32 0x00000000#32)
        Cert.ReferenceIdeal.Gen.reducesTo_S100000x40_S100000_d1 Cert.ReferenceIdeal.Gen.h_S_ (ix1 r)
      = ∑ k : Fin 40, w (ix2 r k) := by
  simp only [Host.reduceAdd, Ideal.hostReduceAdd_def]
  rw [Ideal.hostReduceAdd_single Cert.ReferenceIdeal.Gen.reducesTo_S100000x40_S100000_d1 ref_reduces]
  refine (congrArg₂ (fun a b : EReal => a + b) Ideal.ofBits_zero_f32
    (Finset.sum_congr rfl fun k _ => congrArg w (ref_lift ref_reduces r k))).trans ?_
  exact zero_add _

/-- The logarithm of the reference's row sum, at any column of row `r`. -/
theorem refLogSum_apply (z : Cert.ReferenceIdeal.S100000x40.Idx → EReal) (r : Fin 100000) (q : Fin 40) :
    refLogSum z (ix2 r q) = Ideal.log (∑ k : Fin 40, Ideal.exp (refShift z (ix2 r k))) := by
  unfold refLogSum
  refine (spreadColumn_apply _ r q).trans ?_
  refine (hostLog_apply (s := Cert.ReferenceIdeal.S100000x1) _ (ix2 r (0 : Fin 1))).trans ?_
  refine congrArg Ideal.log ?_
  refine (keepColumn_apply _ r 0).trans ?_
  exact refRowSum_apply _ r

/-- The reference's tail at `(r, q)` is the log-softmax of row `r` of the logits at column `q`. -/
theorem logSoftmaxRows_apply (z : (⟨Cert.ReferenceIdeal.S100000x40, .f32⟩ : BufTy).Contents (Elt Ideal)) (r : Fin 100000) (q : Fin 40) :
    logSoftmaxRows z (ix2 r q)
      = rowLogSoftmax (Ideal.ofBits .f32 0xFF800000#32) (fun k => z (ix2 r k)) q := by
  have hs : ∀ k : Fin 40, refShift z (ix2 r k)
      = z (ix2 r k) - (Finset.univ : Finset (Fin 40)).fold max (Ideal.ofBits .f32 0xFF800000#32) (fun k => z (ix2 r k)) := fun k => by
    unfold refShift
    refine (subf_apply (s := Cert.ReferenceIdeal.S100000x40) (φ := .f32) _ _ (ix2 r k)).trans ?_
    rw [refRowMax_apply]
  rw [logSoftmaxRows_eq]
  refine (subf_apply (s := Cert.ReferenceIdeal.S100000x40) (φ := .f32) _ _ (ix2 r q)).trans ?_
  rw [refLogSum_apply, hs q]
  unfold rowLogSoftmax
  refine congrArg (fun x => _ - Ideal.log x) (Finset.sum_congr rfl fun k _ => ?_)
  rw [hs k]

/-! ## The reference's logits at an index -/

theorem lhs_array_0 (i : Cert.ReferenceIdeal.S100000x40.Idx) (q : Cert.ReferenceIdeal.dot_S100000x128_S128x40_S100000x40_1_0_0_1_n_n.contr.Idx) :
    (Cert.ReferenceIdeal.dot_S100000x128_S128x40_S100000x40_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x40_S100000x40_1_0_0_1_n_n.lhsBatch by decide), dif_pos (show (0 : Fin Cert.ReferenceIdeal.S100000x128.rank) ∈ Cert.ReferenceIdeal.dot_S100000x128_S128x40_S100000x40_1_0_0_1_n_n.lhsNonContracting by decide)]
  rfl
theorem lhs_array_1 (i : Cert.ReferenceIdeal.S100000x40.Idx) (q : Cert.ReferenceIdeal.dot_S100000x128_S128x40_S100000x40_1_0_0_1_n_n.contr.Idx) :
    (Cert.ReferenceIdeal.dot_S100000x128_S128x40_S100000x40_1_0_0_1_n_n.lhsIdx i q 1).val = (q ⟨0, by decide⟩).val :=
  Cert.ReferenceIdeal.dot_S100000x128_S128x40_S100000x40_1_0_0_1_n_n.lhsIdx_val_of_single rfl i q
theorem rhs_array_0 (i : Cert.ReferenceIdeal.S100000x40.Idx) (q : Cert.ReferenceIdeal.dot_S100000x128_S128x40_S100000x40_1_0_0_1_n_n.contr.Idx) :
    (Cert.ReferenceIdeal.dot_S100000x128_S128x40_S100000x40_1_0_0_1_n_n.rhsIdx i q 0).val = (q ⟨0, by decide⟩).val :=
  Cert.ReferenceIdeal.dot_S100000x128_S128x40_S100000x40_1_0_0_1_n_n.rhsIdx_val_of_single rfl i q
theorem rhs_array_1 (i : Cert.ReferenceIdeal.S100000x40.Idx) (q : Cert.ReferenceIdeal.dot_S100000x128_S128x40_S100000x40_1_0_0_1_n_n.contr.Idx) :
    (Cert.ReferenceIdeal.dot_S100000x128_S128x40_S100000x40_1_0_0_1_n_n.rhsIdx i q 1).val = (i 1).val := by
  unfold DotDims.rhsIdx
  rw [dif_neg (show ¬(1 : Fin Cert.ReferenceIdeal.S128x40.rank) ∈ Cert.ReferenceIdeal.dot_S100000x128_S128x40_S100000x40_1_0_0_1_n_n.rhsBatch by decide), dif_pos (show (1 : Fin Cert.ReferenceIdeal.S128x40.rank) ∈ Cert.ReferenceIdeal.dot_S100000x128_S128x40_S100000x40_1_0_0_1_n_n.rhsNonContracting by decide)]
  rfl

/-- The reference's product at `(r, k)`: row `r` of the hidden array against column `k` of the weights. -/
theorem refProduct_apply (h : FVec Ideal Cert.ReferenceIdeal.S100000x128 .f32) (W : FVec Ideal Cert.ReferenceIdeal.S128x40 .f32) (r : Fin 100000) (k : Fin 40) :
    Host.dotGeneral (F := Ideal) Cert.ReferenceIdeal.dot_S100000x128_S128x40_S100000x40_1_0_0_1_n_n none h W (ix2 r k)
      = ∑ κ : Fin 128, h (ix2 r κ) * W (ix2 κ k) := by
  refine (Ideal.dotGeneral_apply Cert.ReferenceIdeal.dot_S100000x128_S128x40_S100000x40_1_0_0_1_n_n none .single h W (ix2 r k)).trans ?_
  rw [← Equiv.sum_comp (ValueIdx.contrEquiv1 Cert.ReferenceIdeal.dot_S100000x128_S128x40_S100000x40_1_0_0_1_n_n 128 rfl rfl).symm]
  refine Finset.sum_congr rfl fun κ _ => ?_
  have hκ := ValueIdx.contrEquiv1_symm_val Cert.ReferenceIdeal.dot_S100000x128_S128x40_S100000x40_1_0_0_1_n_n 128 rfl rfl κ
  have el : Cert.ReferenceIdeal.dot_S100000x128_S128x40_S100000x40_1_0_0_1_n_n.lhsIdx (ix2 r k) ((ValueIdx.contrEquiv1 Cert.ReferenceIdeal.dot_S100000x128_S128x40_S100000x40_1_0_0_1_n_n 128 rfl rfl).symm κ) = ix2 r κ := funext fun a => Fin.ext (by
    match a with
    | ⟨0, _⟩ => exact lhs_array_0 _ _
    | ⟨1, _⟩ => exact (lhs_array_1 _ _).trans hκ)
  have er : Cert.ReferenceIdeal.dot_S100000x128_S128x40_S100000x40_1_0_0_1_n_n.rhsIdx (ix2 r k) ((ValueIdx.contrEquiv1 Cert.ReferenceIdeal.dot_S100000x128_S128x40_S100000x40_1_0_0_1_n_n 128 rfl rfl).symm κ) = ix2 κ k := funext fun a => Fin.ext (by
    match a with
    | ⟨0, _⟩ => exact (rhs_array_0 _ _).trans hκ
    | ⟨1, _⟩ => exact rhs_array_1 _ _)
  rw [el, er]

/-- The reference's bias array at `(r, k)` is the bias vector at `k`, on every row. -/
theorem bias_apply (x9 : (⟨Cert.ReferenceIdeal.S40, .f32⟩ : BufTy).Contents (Elt Ideal)) (r : Fin 100000) (k : Fin 40) :
    val_main_v72 (F := Ideal) x9 (ix2 r k) = x9 (ix1 k) := by
  refine (val_main_v72_apply (F := Ideal) x9 (ix2 r k)).trans ?_
  refine (val_main_v71_apply (F := Ideal) x9 (idx_main_v72 (ix2 r k))).trans ?_
  exact congrArg x9 (funext fun a => Fin.ext (by match a with | ⟨0, _⟩ => rfl))

/-! ## From blocks to the array -/

theorem hz : (![0, 0] : Fin 2 → Nat) = fun _ => 0 := funext fun a => by fin_cases a <;> rfl

/-- The printed index maps, decided over the grid: the row block and the output block move together, one block of rows
    per point; the weights and the bias row stay whole. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row `p` of point `t`'s row block is row `5000 t + p` of the hidden array. -/
theorem rowBlock_apply (c : Dev nD) (t : Fin cfg3.N) (p : Fin 5000) (κ : Fin 128) (hr : t.val * 5000 + p.val < 100000) :
    iblk3 V c 0 t (ix2 p κ) = V c main_v67 (ix2 (⟨t.val * 5000 + p.val, hr⟩ : Fin 100000) κ) := by
  obtain ⟨e0, e1, -⟩ := idx_facts t
  show V c main_v67 (((cfg3.win 0).blk t).view.emb (ix2 p κ)) = V c main_v67 (ix2 (⟨t.val * 5000 + p.val, hr⟩ : Fin 100000) κ)
  have h0 : ((cfg3.win 0).blk t).view.emb (ix2 p κ) = ix2 (⟨t.val * 5000 + p.val, hr⟩ : Fin 100000) κ := by
    funext a; apply Fin.ext
    match a with
    | ⟨0, _⟩ => show win3_0.index t (0 : Fin 2) * 5000 + 1 * p.val = t.val * 5000 + p.val; omega
    | ⟨1, _⟩ => show win3_0.index t (1 : Fin 2) * 128 + 1 * κ.val = κ.val; omega
  rw [h0]

/-- The weights' block at every point is the weights. -/
theorem weightBlock_apply (c : Dev nD) (t : Fin cfg3.N) (κ : Fin 128) (k : Fin 40) :
    iblk3 V c 1 t (ix2 κ k) = V c main_arg8 (ix2 κ k) := by
  obtain ⟨-, -, e2, e3, -⟩ := idx_facts t
  show V c main_arg8 (((cfg3.win 1).blk t).view.emb (ix2 κ k)) = V c main_arg8 (ix2 κ k)
  have h0 : ((cfg3.win 1).blk t).view.emb (ix2 κ k) = ix2 κ k := by
    funext a; apply Fin.ext
    match a with
    | ⟨0, _⟩ => show win3_1.index t (0 : Fin 2) * 128 + 1 * κ.val = κ.val; omega
    | ⟨1, _⟩ => show win3_1.index t (1 : Fin 2) * 40 + 1 * k.val = k.val; omega
  rw [h0]

/-- The bias row's block at every point is the bias row. -/
theorem biasBlock_apply (c : Dev nD) (t : Fin cfg3.N) (u : Fin 1) (k : Fin 40) :
    iblk3 V c 2 t (ix2 u k) = V c main_v68 (ix2 u k) := by
  obtain ⟨-, -, -, -, e4, e5, -⟩ := idx_facts t
  show V c main_v68 (((cfg3.win 2).blk t).view.emb (ix2 u k)) = V c main_v68 (ix2 u k)
  have h0 : ((cfg3.win 2).blk t).view.emb (ix2 u k) = ix2 u k := by
    funext a; apply Fin.ext
    match a with
    | ⟨0, _⟩ => show win3_2.index t (0 : Fin 2) * 1 + 1 * u.val = u.val; omega
    | ⟨1, _⟩ => show win3_2.index t (1 : Fin 2) * 40 + 1 * k.val = k.val; omega
  rw [h0]

/-- The logits of row `p` of point `t`'s block are the reference's logits of row `5000 t + p`, when the third operand is
    the bias laid out as one row. -/
theorem blockLogits_eq (c : Dev nD) (x9 : (⟨Cert.ReferenceIdeal.S40, .f32⟩ : BufTy).Contents (Elt Ideal))
    (h68 : V c main_v68 = shapeCast S1x40 x9 shapeCasts_S40_S1x40) (t : Fin cfg3.N) (p : Fin 5000) (k : Fin 40)
    (hr : t.val * 5000 + p.val < 100000) :
    blockLogits (iblk3 V c 0 t) (iblk3 V c 1 t) (iblk3 V c 2 t) (ix2 p k)
      = (addf (Host.dotGeneral (F := Ideal) (φ₁ := .f32) (φ₂ := .f32) Cert.ReferenceIdeal.dot_S100000x128_S128x40_S100000x40_1_0_0_1_n_n none (V c main_v67) (V c main_arg8)) (val_main_v72 (F := Ideal) x9)) (ix2 (⟨t.val * 5000 + p.val, hr⟩ : Fin 100000) k) := by
  refine (blockLogits_apply (iblk3 V c 0 t) (iblk3 V c 1 t) (iblk3 V c 2 t) p k).trans ?_
  refine Eq.symm ((addf_apply (s := Cert.ReferenceIdeal.S100000x40) (φ := .f32) _ _ _).trans ?_)
  refine congrArg₂ (fun a b : EReal => a + b) ?_ ?_
  · refine (refProduct_apply (V c main_v67) (V c main_arg8) ⟨t.val * 5000 + p.val, hr⟩ k).trans ?_
    refine Finset.sum_congr rfl fun κ _ => ?_
    exact (congrArg₂ (fun a b : EReal => a * b) (rowBlock_apply V c t p κ hr) (weightBlock_apply V c t κ k)).symm
  · refine (bias_apply x9 ⟨t.val * 5000 + p.val, hr⟩ k).trans ?_
    refine Eq.symm ((biasBlock_apply V c t 0 k).trans ?_)
    rw [h68]
    exact shapeCast_a_1a_apply x9 shapeCasts_S40_S1x40 0 k

/-- The payload at `(p, q)` of point `t`'s block is the reference's log-softmax at `(5000 t + p, q)`: both are the
    log-softmax of the same row of logits. -/
theorem payload_apply (c : Dev nD) (x9 : (⟨Cert.ReferenceIdeal.S40, .f32⟩ : BufTy).Contents (Elt Ideal))
    (h68 : V c main_v68 = shapeCast S1x40 x9 shapeCasts_S40_S1x40) (t : Fin cfg3.N) (p : Fin 5000) (q : Fin 40)
    (hr : t.val * 5000 + p.val < 100000) :
    k3_pay1 (F := Ideal) (iblk3 V c 0 t) (iblk3 V c 1 t) (iblk3 V c 2 t) (ix2 p q)
      = logSoftmaxRows (addf (Host.dotGeneral (F := Ideal) (φ₁ := .f32) (φ₂ := .f32) Cert.ReferenceIdeal.dot_S100000x128_S128x40_S100000x40_1_0_0_1_n_n none (V c main_v67) (V c main_arg8)) (val_main_v72 (F := Ideal) x9)) (ix2 (⟨t.val * 5000 + p.val, hr⟩ : Fin 100000) q) := by
  refine (congrFun (pay_eq (iblk3 V c 0 t) (iblk3 V c 1 t) (iblk3 V c 2 t)) (ix2 p q)).trans ?_
  refine (blockTail_apply (blockLogits (iblk3 V c 0 t) (iblk3 V c 1 t) (iblk3 V c 2 t)) p q).trans ?_
  refine Eq.symm ((logSoftmaxRows_apply _ ⟨t.val * 5000 + p.val, hr⟩ q).trans ?_)
  refine congrArg (fun s => rowLogSoftmax (Ideal.ofBits .f32 0xFF800000#32) s q) (funext fun k => ?_)
  exact (blockLogits_eq V c x9 h68 t p k hr).symm

/-- What point `t` writes back is block `t` of the reference's log-softmax of its logits. -/
theorem flushed_eq (c : Dev nD) (x9 : (⟨Cert.ReferenceIdeal.S40, .f32⟩ : BufTy).Contents (Elt Ideal))
    (h68 : V c main_v68 = shapeCast S1x40 x9 shapeCasts_S40_S1x40) (t : Fin cfg3.N) :
    (dat3 V c).flushed 3 t = ((cfg3.win 3).blk t).view.read (Elt Ideal) (logSoftmaxRows (addf (Host.dotGeneral (F := Ideal) (φ₁ := .f32) (φ₂ := .f32) Cert.ReferenceIdeal.dot_S100000x128_S128x40_S100000x40_1_0_0_1_n_n none (V c main_v67) (V c main_arg8)) (val_main_v72 (F := Ideal) x9))) := by
  show (cfg3.win 3).cut (grid3.coords t) ((dat3 V c).after 3 t) = _
  rw [after3_3]
  unfold out3_3
  rw [View.canon_unit_zero hz]
  simp only [View.ld_unit_zero (S := S5000x128) hz, View.ld_unit_zero (S := S128x40) hz, View.ld_unit_zero (S := S1x40) hz]
  obtain ⟨-, -, -, -, -, -, e6, e7⟩ := idx_facts t
  have hN : t.val < 20 := Nat.lt_of_lt_of_eq t.isLt N_3
  funext j
  have hp : (j 0).val < 5000 := (j 0).isLt
  have hq : (j 1).val < 40 := (j 1).isLt
  have hr : t.val * 5000 + (j 0).val < 100000 := by omega
  have hj : (cfg3.win 3).xinj (grid3.coords t) j = ix2 (⟨(j 0).val, hp⟩ : Fin 5000) (⟨(j 1).val, hq⟩ : Fin 40) :=
    funext fun a => match a with | ⟨0, _⟩ => rfl | ⟨1, _⟩ => rfl
  have he : ((cfg3.win 3).blk t).view.emb j = ix2 (⟨t.val * 5000 + (j 0).val, hr⟩ : Fin 100000) (⟨(j 1).val, hq⟩ : Fin 40) := by
    funext a; apply Fin.ext
    match a with
    | ⟨0, _⟩ => show win3_3.index t (0 : Fin 2) * 5000 + 1 * (j 0).val = t.val * 5000 + (j 0).val; omega
    | ⟨1, _⟩ => show win3_3.index t (1 : Fin 2) * 40 + 1 * (j 1).val = (j 1).val; omega
  show k3_pay1 (F := Ideal) (iblk3 V c 0 t) (iblk3 V c 1 t) (iblk3 V c 2 t) ((cfg3.win 3).xinj (grid3.coords t) j)
    = logSoftmaxRows (addf (Host.dotGeneral (F := Ideal) (φ₁ := .f32) (φ₂ := .f32) Cert.ReferenceIdeal.dot_S100000x128_S128x40_S100000x40_1_0_0_1_n_n none (V c main_v67) (V c main_arg8)) (val_main_v72 (F := Ideal) x9)) (((cfg3.win 3).blk t).view.emb j)
  rw [hj, he]
  exact payload_apply V c x9 h68 t ⟨(j 0).val, hp⟩ ⟨(j 1).val, hq⟩ hr

/-- An index of the array is in point `t`'s block iff each coordinate is in the block's range on its axis. -/
theorem mem_blk (t : Fin cfg3.N) (i : S100000x40.Idx) :
    i ∈ ((cfg3.win 3).blk t).view.set ↔ ∀ a : Fin 2, win3_3.index t a * S5000x40.size a ≤ (i a).val ∧ (i a).val < win3_3.index t a * S5000x40.size a + S5000x40.size a := by
  show i ∈ ((View.whole main_v69).slice (win3_3.rect t)).set ↔ _
  rw [View.set_slice_whole, Rect.mem_set_unit]
  exact Iff.rfl

/-- Every row of the array is in some point's block: row `r` in block `r / 5000`. -/
theorem cover (i : S100000x40.Idx) :
    ∃ t : Fin cfg3.N, (cfg3.win 3).flush t = true ∧ i ∈ ((cfg3.win 3).blk t).view.set := by
  have hi0 : (i 0).val < 100000 := (i 0).isLt
  have hi1 : (i 1).val < 40 := (i 1).isLt
  have ht : (i 0).val / 5000 < cfg3.N := by rw [show cfg3.N = 20 from N_3]; omega
  obtain ⟨-, -, -, -, -, -, e6, e7⟩ := idx_facts ⟨(i 0).val / 5000, ht⟩
  refine ⟨⟨(i 0).val / 5000, ht⟩, flush3_3 _, ?_⟩
  rw [mem_blk]
  intro a
  match a with
  | ⟨0, _⟩ =>
    show win3_3.index ⟨(i 0).val / 5000, ht⟩ (0 : Fin 2) * 5000 ≤ (i 0).val ∧ (i 0).val < win3_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win3_3.index ⟨(i 0).val / 5000, ht⟩ (1 : Fin 2) * 40 ≤ (i 1).val ∧ (i 1).val < win3_3.index ⟨(i 0).val / 5000, ht⟩ (1 : Fin 2) * 40 + 40
    rw [e7]; omega

/-- After region 3 its output array is the reference's log-softmax of the affine map of the region's input arrays, whenever the
    region's third operand is the bias vector laid out as one row. -/
theorem value (c : Dev nD) (x9 : (⟨Cert.ReferenceIdeal.S40, .f32⟩ : BufTy).Contents (Elt Ideal))
    (h68 : V c main_v68 = shapeCast S1x40 x9 shapeCasts_S40_S1x40) :
    (dat3 V c).arrAt 3 cfg3.N = logSoftmaxRows (addf (Host.dotGeneral (F := Ideal) (φ₁ := .f32) (φ₂ := .f32) Cert.ReferenceIdeal.dot_S100000x128_S128x40_S100000x40_1_0_0_1_n_n none (V c main_v67) (V c main_arg8)) (val_main_v72 (F := Ideal) x9)) :=
  (dat3 V c).arrAt_eq_of_cover 3 _ (fun t _ => flushed_eq V c x9 h68 t) cover

end Cert.KernelIdeal.Region3

end
-- ==== Proof.KFold.lean ====
import proofs.«171773_j83657372991833_1_alg».proof.Proof.KRegion0
import proofs.«171773_j83657372991833_1_alg».proof.Proof.KRegion1
import proofs.«171773_j83657372991833_1_alg».proof.Proof.KRegion2
import proofs.«171773_j83657372991833_1_alg».proof.Proof.KRegion3
import Idealize.ShloMosaic.Lib.StableHlo.Run

/-!
The idealized kernel program's result as a function of its arguments.

The program alternates stretches of host operations with four kernel regions. The buffer contents at each boundary
are a fold from the launch memory; here that fold is read back at the buffers that matter, one boundary at a time, and
every buffer read is named by the stage of the reference program that computes the same array from the same
arguments:

* the edge lists with self loops appended (source and destination) and the symmetric normalisation weight of every
  edge depend on the edge index argument alone, through the same host operations as in the reference;
* region 0 leaves the input features times the first weight matrix plus the first bias;
* regions 1 and 2 leave a hidden array times a weight matrix; between them the host gathers rows by source, scales by
  the edge weight, adds them up by destination, adds the bias and clamps below at zero;
* region 3 leaves the row-wise log-softmax of the last hidden array times the last weight matrix plus its bias.

At the last boundary the result buffer therefore holds the reference's own result stage of the ten arguments.
-/

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg)

/-! ## Up to region 0: the edge lists, the edge weights, the bias row

Three stretches of host operations. The first appends the self loops to the two edge lists and counts every node's
degree; the second (a select) replaces the inverse square root of a zero degree by zero; the third gathers the two end
points' values for every edge and multiplies them, and lays the first bias out as one row. Each buffer is read back
over one stretch at a time. -/

/-- Reads a buffer back over a stretch of host operations: each operation's result at its own buffer is its function
    of its operands' contents, and any other buffer keeps its contents. -/
local macro "read_back" : tactic =>
  `(tactic| (after_results; all_goals (try simp only [TRef.ofBuf, TRef.toBuf, cast_eq])))

/-! ## Long stretches, in short cuts

A stretch of some twenty host operations is read back a few operations at a time. Each cut is stated over an arbitrary
valuation `V` that has the cut's operand buffers at their stages, so a cut never looks into the boundary it starts
from; the cuts of a stretch are then chained, each keeping what a later one reads. -/

/-- A stretch is its first `k` operations, then the rest. -/
theorem after_take_drop (ops : List (HloOp τ sig (Elt Ideal))) (k : Nat) (V : Valuation τ sig (Elt Ideal)) :
    after ops V = after (ops.drop k) (after (ops.take k) V) := by
  rw [← StableHlo.after_append, List.take_append_drop]

/-- Writes a cut of a stretch out as the literal list of operations it is. -/
local macro "cut_ops" : tactic =>
  `(tactic| simp only [hostOps0_2, hostOps2, hostOps2_1, hostOps3, hostOps3_1, hostOps3_2,
      List.drop_succ_cons, List.drop_zero, List.take_succ_cons, List.take_zero])

/-! ### The edge weights: the source side's gather, the destination side's, the product -/

theorem ew_src (c : Dev nD) (V : Valuation τ sig (Elt Ideal))
    (hd : V (Proc.devRef .tc main_v14) = val_main_v14 (F := Ideal) (m ((c : Thread nD τ).loc main_arg1)))
    (hs : V (Proc.devRef .tc main_v3) = val_main_v3 (F := Ideal) (m ((c : Thread nD τ).loc main_arg1))) :
    after (hostOps0_2.take 9) V (Proc.devRef .tc main_v21) = val_main_v21 (F := Ideal) (m ((c : Thread nD τ).loc main_arg1)) := by
  cut_ops; read_back; rw [hd, hs]; rfl
theorem ew_keep9_v14 (V : Valuation τ sig (Elt Ideal)) :
    after (hostOps0_2.take 9) V (Proc.devRef .tc main_v14) = V (Proc.devRef .tc main_v14) := by
  cut_ops; read_back
theorem ew_keep9_v6 (V : Valuation τ sig (Elt Ideal)) :
    after (hostOps0_2.take 9) V (Proc.devRef .tc main_v6) = V (Proc.devRef .tc main_v6) := by
  cut_ops; read_back
theorem ew_dst (c : Dev nD) (V : Valuation τ sig (Elt Ideal))
    (hd : V (Proc.devRef .tc main_v14) = val_main_v14 (F := Ideal) (m ((c : Thread nD τ).loc main_arg1)))
    (ht : V (Proc.devRef .tc main_v6) = val_main_v6 (F := Ideal) (m ((c : Thread nD τ).loc main_arg1))) :
    after ((hostOps0_2.drop 9).take 9) V (Proc.devRef .tc main_v28) = val_main_v28 (F := Ideal) (m ((c : Thread nD τ).loc main_arg1)) := by
  cut_ops; read_back; rw [hd, ht]; rfl
theorem ew_keep18_v21 (V : Valuation τ sig (Elt Ideal)) :
    after ((hostOps0_2.drop 9).take 9) V (Proc.devRef .tc main_v21) = V (Proc.devRef .tc main_v21) := by
  cut_ops; read_back
theorem ew_prod (c : Dev nD) (V : Valuation τ sig (Elt Ideal))
    (h1 : V (Proc.devRef .tc main_v21) = val_main_v21 (F := Ideal) (m ((c : Thread nD τ).loc main_arg1)))
    (h2 : V (Proc.devRef .tc main_v28) = val_main_v28 (F := Ideal) (m ((c : Thread nD τ).loc main_arg1))) :
    after ((hostOps0_2.drop 9).drop 9) V (Proc.devRef .tc main_v29) = val_main_v29 (F := Ideal) (m ((c : Thread nD τ).loc main_arg1)) := by
  cut_ops; read_back; rw [h1, h2]; rfl
/-- The edge weights after the whole stretch, from the inverse square roots and the two edge lists before it. -/
theorem ew (c : Dev nD) (V : Valuation τ sig (Elt Ideal))
    (hd : V (Proc.devRef .tc main_v14) = val_main_v14 (F := Ideal) (m ((c : Thread nD τ).loc main_arg1)))
    (hs : V (Proc.devRef .tc main_v3) = val_main_v3 (F := Ideal) (m ((c : Thread nD τ).loc main_arg1)))
    (ht : V (Proc.devRef .tc main_v6) = val_main_v6 (F := Ideal) (m ((c : Thread nD τ).loc main_arg1))) :
    after hostOps0_2 V (Proc.devRef .tc main_v29) = val_main_v29 (F := Ideal) (m ((c : Thread nD τ).loc main_arg1)) := by
  rw [after_take_drop hostOps0_2 9 V, after_take_drop (hostOps0_2.drop 9) 9]
  exact ew_prod m c _ ((ew_keep18_v21 _).trans (ew_src m c V hd hs))
    (ew_dst m c _ ((ew_keep9_v14 V).trans hd) ((ew_keep9_v6 V).trans ht))

/-! ### The first aggregation: gather by source, scale by the edge weight, add up by destination, add the bias, clamp -/

theorem a1_gather (c : Dev nD) (V : Valuation τ sig (Elt Ideal))
    (hl : V (Proc.devRef .tc main_v32) = val_main_v34 (F := Ideal) (m ((c : Thread nD τ).loc main_arg0)) (m ((c : Thread nD τ).loc main_arg2)) (m ((c : Thread nD τ).loc main_arg3)) (m ((c : Thread nD τ).loc main_arg4)))
    (hs : V (Proc.devRef .tc main_v3) = val_main_v3 (F := Ideal) (m ((c : Thread nD τ).loc main_arg1))) :
    after (hostOps2.take 9) V (Proc.devRef .tc main_v39) = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  cut_ops; read_back; rw [hl, hs]; rfl
theorem a1_keep9_v29 (V : Valuation τ sig (Elt Ideal)) :
    after (hostOps2.take 9) V (Proc.devRef .tc main_v29) = V (Proc.devRef .tc main_v29) := by
  cut_ops; read_back
theorem a1_msg (c : Dev nD) (V : Valuation τ sig (Elt Ideal))
    (hg : V (Proc.devRef .tc main_v39) = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)))
    (hn : V (Proc.devRef .tc main_v29) = val_main_v29 (F := Ideal) (m ((c : Thread nD τ).loc main_arg1))) :
    after ((hostOps2.drop 9).take 3) V (Proc.devRef .tc main_v42) = val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  cut_ops; read_back; rw [hg, hn]; rfl
theorem a1_keep12_v6 (V : Valuation τ sig (Elt Ideal)) :
    after ((hostOps2.drop 9).take 3) (after (hostOps2.take 9) V) (Proc.devRef .tc main_v6) = V (Proc.devRef .tc main_v6) := by
  cut_ops; read_back
theorem a1_sum (c : Dev nD) (V : Valuation τ sig (Elt Ideal))
    (hm : V (Proc.devRef .tc main_v42) = val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)))
    (ht : V (Proc.devRef .tc main_v6) = val_main_v6 (F := Ideal) (m ((c : Thread nD τ).loc main_arg1))) :
    after (((hostOps2.drop 9).drop 3).take 4) V (Proc.devRef .tc main_v45) = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  cut_ops; read_back; rw [hm, ht]; rfl
theorem a1_keep16_arg5 (V : Valuation τ sig (Elt Ideal)) :
    after (((hostOps2.drop 9).drop 3).take 4) (after ((hostOps2.drop 9).take 3) (after (hostOps2.take 9) V)) (Proc.devRef .tc main_arg5) = V (Proc.devRef .tc main_arg5) := by
  cut_ops; read_back
theorem a1_bias (c : Dev nD) (V : Valuation τ sig (Elt Ideal))
    (hs : V (Proc.devRef .tc main_v45) = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)))
    (hb : V (Proc.devRef .tc main_arg5) = (m ((c : Thread nD τ).loc main_arg5))) :
    after (((hostOps2.drop 9).drop 3).drop 4) V (Proc.devRef .tc main_v48) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  cut_ops; read_back; rw [hs, hb]; rfl
theorem a1_relu (c : Dev nD) (V : Valuation τ sig (Elt Ideal))
    (h : V (Proc.devRef .tc main_v48) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :
    after hostOps2_1 V (Proc.devRef .tc main_v49) = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  cut_ops; read_back; rw [h]; rfl
/-- The clamped aggregate after the whole stretch, from the product, the edge lists, the edge weights and the bias before it. -/
theorem a1 (c : Dev nD) (V : Valuation τ sig (Elt Ideal))
    (hl : V (Proc.devRef .tc main_v32) = val_main_v34 (F := Ideal) (m ((c : Thread nD τ).loc main_arg0)) (m ((c : Thread nD τ).loc main_arg2)) (m ((c : Thread nD τ).loc main_arg3)) (m ((c : Thread nD τ).loc main_arg4)))
    (hs : V (Proc.devRef .tc main_v3) = val_main_v3 (F := Ideal) (m ((c : Thread nD τ).loc main_arg1)))
    (hn : V (Proc.devRef .tc main_v29) = val_main_v29 (F := Ideal) (m ((c : Thread nD τ).loc main_arg1)))
    (ht : V (Proc.devRef .tc main_v6) = val_main_v6 (F := Ideal) (m ((c : Thread nD τ).loc main_arg1)))
    (hb : V (Proc.devRef .tc main_arg5) = (m ((c : Thread nD τ).loc main_arg5))) :
    after hostOps2_1 (after hostOps2 V) (Proc.devRef .tc main_v49) = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [after_take_drop hostOps2 9 V, after_take_drop (hostOps2.drop 9) 3, after_take_drop ((hostOps2.drop 9).drop 3) 4]
  exact a1_relu m c _ (a1_bias m c _
    (a1_sum m c _ (a1_msg m c _ (a1_gather m c V hl hs) ((a1_keep9_v29 V).trans hn)) ((a1_keep12_v6 V).trans ht))
    ((a1_keep16_arg5 V).trans hb))

/-! ### The second aggregation: gather by source, scale by the edge weight, add up by destination, add the bias, clamp -/

theorem a2_gather (c : Dev nD) (V : Valuation τ sig (Elt Ideal))
    (hl : V (Proc.devRef .tc main_v50) = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
    (hs : V (Proc.devRef .tc main_v3) = val_main_v3 (F := Ideal) (m ((c : Thread nD τ).loc main_arg1))) :
    after (hostOps3.take 9) V (Proc.devRef .tc main_v57) = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  cut_ops; read_back; rw [hl, hs]; rfl
theorem a2_keep9_v29 (V : Valuation τ sig (Elt Ideal)) :
    after (hostOps3.take 9) V (Proc.devRef .tc main_v29) = V (Proc.devRef .tc main_v29) := by
  cut_ops; read_back
theorem a2_msg (c : Dev nD) (V : Valuation τ sig (Elt Ideal))
    (hg : V (Proc.devRef .tc main_v57) = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
    (hn : V (Proc.devRef .tc main_v29) = val_main_v29 (F := Ideal) (m ((c : Thread nD τ).loc main_arg1))) :
    after ((hostOps3.drop 9).take 3) V (Proc.devRef .tc main_v60) = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  cut_ops; read_back; rw [hg, hn]; rfl
theorem a2_keep12_v6 (V : Valuation τ sig (Elt Ideal)) :
    after ((hostOps3.drop 9).take 3) (after (hostOps3.take 9) V) (Proc.devRef .tc main_v6) = V (Proc.devRef .tc main_v6) := by
  cut_ops; read_back
theorem a2_sum (c : Dev nD) (V : Valuation τ sig (Elt Ideal))
    (hm : V (Proc.devRef .tc main_v60) = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
    (ht : V (Proc.devRef .tc main_v6) = val_main_v6 (F := Ideal) (m ((c : Thread nD τ).loc main_arg1))) :
    after (((hostOps3.drop 9).drop 3).take 4) V (Proc.devRef .tc main_v63) = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  cut_ops; read_back; rw [hm, ht]; rfl
theorem a2_keep16_arg7 (V : Valuation τ sig (Elt Ideal)) :
    after (((hostOps3.drop 9).drop 3).take 4) (after ((hostOps3.drop 9).take 3) (after (hostOps3.take 9) V)) (Proc.devRef .tc main_arg7) = V (Proc.devRef .tc main_arg7) := by
  cut_ops; read_back
theorem a2_bias (c : Dev nD) (V : Valuation τ sig (Elt Ideal))
    (hs : V (Proc.devRef .tc main_v63) = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
    (hb : V (Proc.devRef .tc main_arg7) = (m ((c : Thread nD τ).loc main_arg7))) :
    after (((hostOps3.drop 9).drop 3).drop 4) V (Proc.devRef .tc main_v66) = val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  cut_ops; read_back; rw [hs, hb]; rfl
theorem a2_relu (c : Dev nD) (V : Valuation τ sig (Elt Ideal))
    (h : V (Proc.devRef .tc main_v66) = val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :
    after hostOps3_1 V (Proc.devRef .tc main_v67) = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  cut_ops; read_back; rw [h]; rfl
/-- The clamped aggregate after the whole stretch, from the product, the edge lists, the edge weights and the bias before it. -/
theorem a2 (c : Dev nD) (V : Valuation τ sig (Elt Ideal))
    (hl : V (Proc.devRef .tc main_v50) = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
    (hs : V (Proc.devRef .tc main_v3) = val_main_v3 (F := Ideal) (m ((c : Thread nD τ).loc main_arg1)))
    (hn : V (Proc.devRef .tc main_v29) = val_main_v29 (F := Ideal) (m ((c : Thread nD τ).loc main_arg1)))
    (ht : V (Proc.devRef .tc main_v6) = val_main_v6 (F := Ideal) (m ((c : Thread nD τ).loc main_arg1)))
    (hb : V (Proc.devRef .tc main_arg7) = (m ((c : Thread nD τ).loc main_arg7))) :
    after hostOps3_1 (after hostOps3 V) (Proc.devRef .tc main_v67) = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [after_take_drop hostOps3 9 V, after_take_drop (hostOps3.drop 9) 3, after_take_drop ((hostOps3.drop 9).drop 3) 4]
  exact a2_relu m c _ (a2_bias m c _
    (a2_sum m c _ (a2_msg m c _ (a2_gather m c V hl hs) ((a2_keep9_v29 V).trans hn)) ((a2_keep12_v6 V).trans ht))
    ((a2_keep16_arg7 V).trans hb))

/-- The last reshape of the stretch (the last bias laid out as one row) leaves the clamped aggregate where it is. -/
theorem a2_keep_last (V : Valuation τ sig (Elt Ideal)) :
    after hostOps3_2 V (Proc.devRef .tc main_v67) = V (Proc.devRef .tc main_v67) := by
  cut_ops; read_back

theorem at1_src (c : Dev nD) : W1 m ρ c (Proc.devRef .tc main_v3) = val_main_v3 (F := Ideal) (m ((c : Thread nD τ).loc main_arg1)) := by
  dsimp only [W1, W0, hostOps0]; read_back; all_goals rfl
theorem at1_dst (c : Dev nD) : W1 m ρ c (Proc.devRef .tc main_v6) = val_main_v6 (F := Ideal) (m ((c : Thread nD τ).loc main_arg1)) := by
  dsimp only [W1, W0, hostOps0]; read_back; all_goals rfl
theorem at1_pos (c : Dev nD) : W1 m ρ c (Proc.devRef .tc main_v12) = val_main_v12 (F := Ideal) (m ((c : Thread nD τ).loc main_arg1)) := by
  dsimp only [W1, W0, hostOps0]; read_back; all_goals rfl
theorem at1_rsqrt (c : Dev nD) : W1 m ρ c (Proc.devRef .tc main_v13) = val_main_v13 (F := Ideal) (m ((c : Thread nD τ).loc main_arg1)) := by
  dsimp only [W1, W0, hostOps0]; read_back; all_goals rfl
theorem at1_zero (c : Dev nD) : W1 m ρ c (Proc.devRef .tc main_cst_2) = val_main_cst_2 (F := Ideal) := by
  dsimp only [W1, W0, hostOps0]; read_back; all_goals rfl
theorem at1_arg0 (c : Dev nD) : W1 m ρ c (Proc.devRef .tc main_arg0) = (m ((c : Thread nD τ).loc main_arg0)) := by
  dsimp only [W1, W0, hostOps0]; read_back; all_goals rfl
theorem at1_arg2 (c : Dev nD) : W1 m ρ c (Proc.devRef .tc main_arg2) = (m ((c : Thread nD τ).loc main_arg2)) := by
  dsimp only [W1, W0, hostOps0]; read_back; all_goals rfl
theorem at1_arg3 (c : Dev nD) : W1 m ρ c (Proc.devRef .tc main_arg3) = (m ((c : Thread nD τ).loc main_arg3)) := by
  dsimp only [W1, W0, hostOps0]; read_back; all_goals rfl
theorem at1_arg4 (c : Dev nD) : W1 m ρ c (Proc.devRef .tc main_arg4) = (m ((c : Thread nD τ).loc main_arg4)) := by
  dsimp only [W1, W0, hostOps0]; read_back; all_goals rfl
theorem at1_arg5 (c : Dev nD) : W1 m ρ c (Proc.devRef .tc main_arg5) = (m ((c : Thread nD τ).loc main_arg5)) := by
  dsimp only [W1, W0, hostOps0]; read_back; all_goals rfl
theorem at1_arg6 (c : Dev nD) : W1 m ρ c (Proc.devRef .tc main_arg6) = (m ((c : Thread nD τ).loc main_arg6)) := by
  dsimp only [W1, W0, hostOps0]; read_back; all_goals rfl
theorem at1_arg7 (c : Dev nD) : W1 m ρ c (Proc.devRef .tc main_arg7) = (m ((c : Thread nD τ).loc main_arg7)) := by
  dsimp only [W1, W0, hostOps0]; read_back; all_goals rfl
theorem at1_arg8 (c : Dev nD) : W1 m ρ c (Proc.devRef .tc main_arg8) = (m ((c : Thread nD τ).loc main_arg8)) := by
  dsimp only [W1, W0, hostOps0]; read_back; all_goals rfl
theorem at1_arg9 (c : Dev nD) : W1 m ρ c (Proc.devRef .tc main_arg9) = (m ((c : Thread nD τ).loc main_arg9)) := by
  dsimp only [W1, W0, hostOps0]; read_back; all_goals rfl

/-- Over the select that guards the inverse square root the boundary before it is only a name: the stretch is read
    back over an arbitrary valuation that has the three operand buffers at their stages. -/
theorem at2_dinv (c : Dev nD) : W2 m ρ c (Proc.devRef .tc main_v14) = val_main_v14 (F := Ideal) (m ((c : Thread nD τ).loc main_arg1)) := by
  have hp := at1_pos m ρ c; have hr := at1_rsqrt m ρ c; have hz := at1_zero m ρ c
  dsimp only [W2, hostOps0_1]
  generalize W1 m ρ c = V at hp hr hz ⊢
  read_back
  rw [hp, hr, hz]; rfl
theorem at2_main_v3 (c : Dev nD) : W2 m ρ c (Proc.devRef .tc main_v3) = W1 m ρ c (Proc.devRef .tc main_v3) := by
  dsimp only [W2, hostOps0_1]; generalize W1 m ρ c = V; read_back
theorem at2_main_v6 (c : Dev nD) : W2 m ρ c (Proc.devRef .tc main_v6) = W1 m ρ c (Proc.devRef .tc main_v6) := by
  dsimp only [W2, hostOps0_1]; generalize W1 m ρ c = V; read_back
theorem at2_main_arg0 (c : Dev nD) : W2 m ρ c (Proc.devRef .tc main_arg0) = W1 m ρ c (Proc.devRef .tc main_arg0) := by
  dsimp only [W2, hostOps0_1]; generalize W1 m ρ c = V; read_back
theorem at2_main_arg2 (c : Dev nD) : W2 m ρ c (Proc.devRef .tc main_arg2) = W1 m ρ c (Proc.devRef .tc main_arg2) := by
  dsimp only [W2, hostOps0_1]; generalize W1 m ρ c = V; read_back
theorem at2_main_arg3 (c : Dev nD) : W2 m ρ c (Proc.devRef .tc main_arg3) = W1 m ρ c (Proc.devRef .tc main_arg3) := by
  dsimp only [W2, hostOps0_1]; generalize W1 m ρ c = V; read_back
theorem at2_main_arg4 (c : Dev nD) : W2 m ρ c (Proc.devRef .tc main_arg4) = W1 m ρ c (Proc.devRef .tc main_arg4) := by
  dsimp only [W2, hostOps0_1]; generalize W1 m ρ c = V; read_back
theorem at2_main_arg5 (c : Dev nD) : W2 m ρ c (Proc.devRef .tc main_arg5) = W1 m ρ c (Proc.devRef .tc main_arg5) := by
  dsimp only [W2, hostOps0_1]; generalize W1 m ρ c = V; read_back
theorem at2_main_arg6 (c : Dev nD) : W2 m ρ c (Proc.devRef .tc main_arg6) = W1 m ρ c (Proc.devRef .tc main_arg6) := by
  dsimp only [W2, hostOps0_1]; generalize W1 m ρ c = V; read_back
theorem at2_main_arg7 (c : Dev nD) : W2 m ρ c (Proc.devRef .tc main_arg7) = W1 m ρ c (Proc.devRef .tc main_arg7) := by
  dsimp only [W2, hostOps0_1]; generalize W1 m ρ c = V; read_back
theorem at2_main_arg8 (c : Dev nD) : W2 m ρ c (Proc.devRef .tc main_arg8) = W1 m ρ c (Proc.devRef .tc main_arg8) := by
  dsimp only [W2, hostOps0_1]; generalize W1 m ρ c = V; read_back
theorem at2_main_arg9 (c : Dev nD) : W2 m ρ c (Proc.devRef .tc main_arg9) = W1 m ρ c (Proc.devRef .tc main_arg9) := by
  dsimp only [W2, hostOps0_1]; generalize W1 m ρ c = V; read_back

theorem at3_src (c : Dev nD) : W3 m ρ c (Proc.devRef .tc main_v3) = val_main_v3 (F := Ideal) (m ((c : Thread nD τ).loc main_arg1)) := by
  have h := (at2_main_v3 m ρ c).trans (at1_src m ρ c)
  dsimp only [W3, hostOps0_2]; generalize W2 m ρ c = V at h ⊢; read_back; exact h
theorem at3_dst (c : Dev nD) : W3 m ρ c (Proc.devRef .tc main_v6) = val_main_v6 (F := Ideal) (m ((c : Thread nD τ).loc main_arg1)) := by
  have h := (at2_main_v6 m ρ c).trans (at1_dst m ρ c)
  dsimp only [W3, hostOps0_2]; generalize W2 m ρ c = V at h ⊢; read_back; exact h
theorem at3_norm (c : Dev nD) : W3 m ρ c (Proc.devRef .tc main_v29) = val_main_v29 (F := Ideal) (m ((c : Thread nD τ).loc main_arg1)) :=
  ew m c (W2 m ρ c) (at2_dinv m ρ c) ((at2_main_v3 m ρ c).trans (at1_src m ρ c)) ((at2_main_v6 m ρ c).trans (at1_dst m ρ c))
theorem at3_bias (c : Dev nD) : W3 m ρ c (Proc.devRef .tc main_v30) = shapeCast S1x128 (m ((c : Thread nD τ).loc main_arg3)) shapeCasts_S128_S1x128 := by
  have h := (at2_main_arg3 m ρ c).trans (at1_arg3 m ρ c)
  dsimp only [W3, hostOps0_2]; generalize W2 m ρ c = V at h ⊢; read_back
  rw [h]; rfl
theorem at3_arg0 (c : Dev nD) : W3 m ρ c (Proc.devRef .tc main_arg0) = (m ((c : Thread nD τ).loc main_arg0)) := by
  have h := (at2_main_arg0 m ρ c).trans (at1_arg0 m ρ c)
  dsimp only [W3, hostOps0_2]; generalize W2 m ρ c = V at h ⊢; read_back; exact h
theorem at3_arg2 (c : Dev nD) : W3 m ρ c (Proc.devRef .tc main_arg2) = (m ((c : Thread nD τ).loc main_arg2)) := by
  have h := (at2_main_arg2 m ρ c).trans (at1_arg2 m ρ c)
  dsimp only [W3, hostOps0_2]; generalize W2 m ρ c = V at h ⊢; read_back; exact h
theorem at3_arg4 (c : Dev nD) : W3 m ρ c (Proc.devRef .tc main_arg4) = (m ((c : Thread nD τ).loc main_arg4)) := by
  have h := (at2_main_arg4 m ρ c).trans (at1_arg4 m ρ c)
  dsimp only [W3, hostOps0_2]; generalize W2 m ρ c = V at h ⊢; read_back; exact h
theorem at3_arg5 (c : Dev nD) : W3 m ρ c (Proc.devRef .tc main_arg5) = (m ((c : Thread nD τ).loc main_arg5)) := by
  have h := (at2_main_arg5 m ρ c).trans (at1_arg5 m ρ c)
  dsimp only [W3, hostOps0_2]; generalize W2 m ρ c = V at h ⊢; read_back; exact h
theorem at3_arg6 (c : Dev nD) : W3 m ρ c (Proc.devRef .tc main_arg6) = (m ((c : Thread nD τ).loc main_arg6)) := by
  have h := (at2_main_arg6 m ρ c).trans (at1_arg6 m ρ c)
  dsimp only [W3, hostOps0_2]; generalize W2 m ρ c = V at h ⊢; read_back; exact h
theorem at3_arg7 (c : Dev nD) : W3 m ρ c (Proc.devRef .tc main_arg7) = (m ((c : Thread nD τ).loc main_arg7)) := by
  have h := (at2_main_arg7 m ρ c).trans (at1_arg7 m ρ c)
  dsimp only [W3, hostOps0_2]; generalize W2 m ρ c = V at h ⊢; read_back; exact h
theorem at3_arg8 (c : Dev nD) : W3 m ρ c (Proc.devRef .tc main_arg8) = (m ((c : Thread nD τ).loc main_arg8)) := by
  have h := (at2_main_arg8 m ρ c).trans (at1_arg8 m ρ c)
  dsimp only [W3, hostOps0_2]; generalize W2 m ρ c = V at h ⊢; read_back; exact h
theorem at3_arg9 (c : Dev nD) : W3 m ρ c (Proc.devRef .tc main_arg9) = (m ((c : Thread nD τ).loc main_arg9)) := by
  have h := (at2_main_arg9 m ρ c).trans (at1_arg9 m ρ c)
  dsimp only [W3, hostOps0_2]; generalize W2 m ρ c = V at h ⊢; read_back; exact h

/-! ## After region 0 -/

theorem at4_h0 (c : Dev nD) : W4 m ρ c (Proc.devRef .tc main_v31) = val_main_v33 (F := Ideal) (m ((c : Thread nD τ).loc main_arg0)) (m ((c : Thread nD τ).loc main_arg2)) (m ((c : Thread nD τ).loc main_arg3)) :=
  (W4_arr m ρ c 3).trans ((Region0.value (V3 m ρ) c (m ((c : Thread nD τ).loc main_arg3)) (at3_bias m ρ c)).trans
    (by rw [show V3 m ρ c main_arg0 = _ from at3_arg0 m ρ c, show V3 m ρ c main_arg2 = _ from at3_arg2 m ρ c]))
theorem at4_main_v3 (c : Dev nD) : W4 m ρ c (Proc.devRef .tc main_v3) = W3 m ρ c (Proc.devRef .tc main_v3) := W4_of_ne m ρ c main_v3 (by decide)
theorem at4_main_v6 (c : Dev nD) : W4 m ρ c (Proc.devRef .tc main_v6) = W3 m ρ c (Proc.devRef .tc main_v6) := W4_of_ne m ρ c main_v6 (by decide)
theorem at4_main_v29 (c : Dev nD) : W4 m ρ c (Proc.devRef .tc main_v29) = W3 m ρ c (Proc.devRef .tc main_v29) := W4_of_ne m ρ c main_v29 (by decide)
theorem at4_main_arg4 (c : Dev nD) : W4 m ρ c (Proc.devRef .tc main_arg4) = W3 m ρ c (Proc.devRef .tc main_arg4) := W4_of_ne m ρ c main_arg4 (by decide)
theorem at4_main_arg5 (c : Dev nD) : W4 m ρ c (Proc.devRef .tc main_arg5) = W3 m ρ c (Proc.devRef .tc main_arg5) := W4_of_ne m ρ c main_arg5 (by decide)
theorem at4_main_arg6 (c : Dev nD) : W4 m ρ c (Proc.devRef .tc main_arg6) = W3 m ρ c (Proc.devRef .tc main_arg6) := W4_of_ne m ρ c main_arg6 (by decide)
theorem at4_main_arg7 (c : Dev nD) : W4 m ρ c (Proc.devRef .tc main_arg7) = W3 m ρ c (Proc.devRef .tc main_arg7) := W4_of_ne m ρ c main_arg7 (by decide)
theorem at4_main_arg8 (c : Dev nD) : W4 m ρ c (Proc.devRef .tc main_arg8) = W3 m ρ c (Proc.devRef .tc main_arg8) := W4_of_ne m ρ c main_arg8 (by decide)
theorem at4_main_arg9 (c : Dev nD) : W4 m ρ c (Proc.devRef .tc main_arg9) = W3 m ρ c (Proc.devRef .tc main_arg9) := W4_of_ne m ρ c main_arg9 (by decide)

/-! ## After region 1 -/

theorem at5_lin1 (c : Dev nD) : W5 m ρ c (Proc.devRef .tc main_v32) = val_main_v34 (F := Ideal) (m ((c : Thread nD τ).loc main_arg0)) (m ((c : Thread nD τ).loc main_arg2)) (m ((c : Thread nD τ).loc main_arg3)) (m ((c : Thread nD τ).loc main_arg4)) :=
  (W5_arr m ρ c 2).trans ((Region1.value1 (V4 m ρ) c).trans
    (by rw [show V4 m ρ c main_v31 = _ from at4_h0 m ρ c, show V4 m ρ c main_arg4 = _ from (at4_main_arg4 m ρ c).trans (at3_arg4 m ρ c)]; rfl))
theorem at5_main_v3 (c : Dev nD) : W5 m ρ c (Proc.devRef .tc main_v3) = W4 m ρ c (Proc.devRef .tc main_v3) := W5_of_ne m ρ c main_v3 (by decide)
theorem at5_main_v6 (c : Dev nD) : W5 m ρ c (Proc.devRef .tc main_v6) = W4 m ρ c (Proc.devRef .tc main_v6) := W5_of_ne m ρ c main_v6 (by decide)
theorem at5_main_v29 (c : Dev nD) : W5 m ρ c (Proc.devRef .tc main_v29) = W4 m ρ c (Proc.devRef .tc main_v29) := W5_of_ne m ρ c main_v29 (by decide)
theorem at5_main_arg5 (c : Dev nD) : W5 m ρ c (Proc.devRef .tc main_arg5) = W4 m ρ c (Proc.devRef .tc main_arg5) := W5_of_ne m ρ c main_arg5 (by decide)
theorem at5_main_arg6 (c : Dev nD) : W5 m ρ c (Proc.devRef .tc main_arg6) = W4 m ρ c (Proc.devRef .tc main_arg6) := W5_of_ne m ρ c main_arg6 (by decide)
theorem at5_main_arg7 (c : Dev nD) : W5 m ρ c (Proc.devRef .tc main_arg7) = W4 m ρ c (Proc.devRef .tc main_arg7) := W5_of_ne m ρ c main_arg7 (by decide)
theorem at5_main_arg8 (c : Dev nD) : W5 m ρ c (Proc.devRef .tc main_arg8) = W4 m ρ c (Proc.devRef .tc main_arg8) := W5_of_ne m ρ c main_arg8 (by decide)
theorem at5_main_arg9 (c : Dev nD) : W5 m ρ c (Proc.devRef .tc main_arg9) = W4 m ρ c (Proc.devRef .tc main_arg9) := W5_of_ne m ρ c main_arg9 (by decide)

/-! ## The first aggregation: up to region 2 -/

theorem at7_h1 (c : Dev nD) : W7 m ρ c (Proc.devRef .tc main_v49) = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  a1 m c (W5 m ρ c) (at5_lin1 m ρ c)
    ((at5_main_v3 m ρ c).trans ((at4_main_v3 m ρ c).trans (at3_src m ρ c)))
    ((at5_main_v29 m ρ c).trans ((at4_main_v29 m ρ c).trans (at3_norm m ρ c)))
    ((at5_main_v6 m ρ c).trans ((at4_main_v6 m ρ c).trans (at3_dst m ρ c)))
    ((at5_main_arg5 m ρ c).trans ((at4_main_arg5 m ρ c).trans (at3_arg5 m ρ c)))
theorem at7_main_v3 (c : Dev nD) : W7 m ρ c (Proc.devRef .tc main_v3) = W5 m ρ c (Proc.devRef .tc main_v3) := by
  dsimp only [W7, W6, hostOps2, hostOps2_1]; read_back
theorem at7_main_v6 (c : Dev nD) : W7 m ρ c (Proc.devRef .tc main_v6) = W5 m ρ c (Proc.devRef .tc main_v6) := by
  dsimp only [W7, W6, hostOps2, hostOps2_1]; read_back
theorem at7_main_v29 (c : Dev nD) : W7 m ρ c (Proc.devRef .tc main_v29) = W5 m ρ c (Proc.devRef .tc main_v29) := by
  dsimp only [W7, W6, hostOps2, hostOps2_1]; read_back
theorem at7_main_arg6 (c : Dev nD) : W7 m ρ c (Proc.devRef .tc main_arg6) = W5 m ρ c (Proc.devRef .tc main_arg6) := by
  dsimp only [W7, W6, hostOps2, hostOps2_1]; read_back
theorem at7_main_arg7 (c : Dev nD) : W7 m ρ c (Proc.devRef .tc main_arg7) = W5 m ρ c (Proc.devRef .tc main_arg7) := by
  dsimp only [W7, W6, hostOps2, hostOps2_1]; read_back
theorem at7_main_arg8 (c : Dev nD) : W7 m ρ c (Proc.devRef .tc main_arg8) = W5 m ρ c (Proc.devRef .tc main_arg8) := by
  dsimp only [W7, W6, hostOps2, hostOps2_1]; read_back
theorem at7_main_arg9 (c : Dev nD) : W7 m ρ c (Proc.devRef .tc main_arg9) = W5 m ρ c (Proc.devRef .tc main_arg9) := by
  dsimp only [W7, W6, hostOps2, hostOps2_1]; read_back

/-! ## After region 2 -/

theorem at8_lin2 (c : Dev nD) : W8 m ρ c (Proc.devRef .tc main_v50) = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W8_arr m ρ c 2).trans ((Region2.value2 (V7 m ρ) c).trans
    (by rw [show V7 m ρ c main_v49 = _ from at7_h1 m ρ c,
          show V7 m ρ c main_arg6 = _ from (at7_main_arg6 m ρ c).trans ((at5_main_arg6 m ρ c).trans ((at4_main_arg6 m ρ c).trans (at3_arg6 m ρ c)))]; rfl))
theorem at8_main_v3 (c : Dev nD) : W8 m ρ c (Proc.devRef .tc main_v3) = W7 m ρ c (Proc.devRef .tc main_v3) := W8_of_ne m ρ c main_v3 (by decide)
theorem at8_main_v6 (c : Dev nD) : W8 m ρ c (Proc.devRef .tc main_v6) = W7 m ρ c (Proc.devRef .tc main_v6) := W8_of_ne m ρ c main_v6 (by decide)
theorem at8_main_v29 (c : Dev nD) : W8 m ρ c (Proc.devRef .tc main_v29) = W7 m ρ c (Proc.devRef .tc main_v29) := W8_of_ne m ρ c main_v29 (by decide)
theorem at8_main_arg7 (c : Dev nD) : W8 m ρ c (Proc.devRef .tc main_arg7) = W7 m ρ c (Proc.devRef .tc main_arg7) := W8_of_ne m ρ c main_arg7 (by decide)
theorem at8_main_arg8 (c : Dev nD) : W8 m ρ c (Proc.devRef .tc main_arg8) = W7 m ρ c (Proc.devRef .tc main_arg8) := W8_of_ne m ρ c main_arg8 (by decide)
theorem at8_main_arg9 (c : Dev nD) : W8 m ρ c (Proc.devRef .tc main_arg9) = W7 m ρ c (Proc.devRef .tc main_arg9) := W8_of_ne m ρ c main_arg9 (by decide)

/-! ## The second aggregation: up to region 3 -/

theorem at11_h2 (c : Dev nD) : W11 m ρ c (Proc.devRef .tc main_v67) = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (a2_keep_last _).trans (a2 m c (W8 m ρ c) (at8_lin2 m ρ c)
    ((at8_main_v3 m ρ c).trans ((at7_main_v3 m ρ c).trans ((at5_main_v3 m ρ c).trans ((at4_main_v3 m ρ c).trans (at3_src m ρ c)))))
    ((at8_main_v29 m ρ c).trans ((at7_main_v29 m ρ c).trans ((at5_main_v29 m ρ c).trans ((at4_main_v29 m ρ c).trans (at3_norm m ρ c)))))
    ((at8_main_v6 m ρ c).trans ((at7_main_v6 m ρ c).trans ((at5_main_v6 m ρ c).trans ((at4_main_v6 m ρ c).trans (at3_dst m ρ c)))))
    ((at8_main_arg7 m ρ c).trans ((at7_main_arg7 m ρ c).trans ((at5_main_arg7 m ρ c).trans ((at4_main_arg7 m ρ c).trans (at3_arg7 m ρ c))))))
theorem at11_bias (c : Dev nD) : W11 m ρ c (Proc.devRef .tc main_v68) = shapeCast S1x40 (m ((c : Thread nD τ).loc main_arg9)) shapeCasts_S40_S1x40 := by
  dsimp only [W11, W10, W9, hostOps3, hostOps3_1, hostOps3_2]; read_back
  rw [(at8_main_arg9 m ρ c).trans ((at7_main_arg9 m ρ c).trans ((at5_main_arg9 m ρ c).trans ((at4_main_arg9 m ρ c).trans (at3_arg9 m ρ c))))]; rfl
theorem at11_arg8 (c : Dev nD) : W11 m ρ c (Proc.devRef .tc main_arg8) = (m ((c : Thread nD τ).loc main_arg8)) := by
  dsimp only [W11, W10, W9, hostOps3, hostOps3_1, hostOps3_2]; read_back
  exact (at8_main_arg8 m ρ c).trans ((at7_main_arg8 m ρ c).trans ((at5_main_arg8 m ρ c).trans ((at4_main_arg8 m ρ c).trans (at3_arg8 m ρ c))))

/-! ## After region 3: the result -/

/-- The reference's result stage is its log-softmax tail applied to its logits stage: the tail's operations are the
    reference's own, in its order. -/
theorem ref_tail (x0 : (⟨Cert.ReferenceIdeal.S100000x256, .f32⟩ : BufTy).Contents (Elt Ideal)) (x1 : (⟨Cert.ReferenceIdeal.S2x1600000, .i32⟩ : BufTy).Contents (Elt Ideal))
    (x2 : (⟨Cert.ReferenceIdeal.S256x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal))
    (x6 : (⟨Cert.ReferenceIdeal.S128x128, .f32⟩ : BufTy).Contents (Elt Ideal)) (x7 : (⟨Cert.ReferenceIdeal.S128, .f32⟩ : BufTy).Contents (Elt Ideal)) (x8 : (⟨Cert.ReferenceIdeal.S128x40, .f32⟩ : BufTy).Contents (Elt Ideal)) (x9 : (⟨Cert.ReferenceIdeal.S40, .f32⟩ : BufTy).Contents (Elt Ideal)) :
    Region3.logSoftmaxRows (val_main_v73 (F := Ideal) x0 x1 x2 x3 x4 x5 x6 x7 x8 x9)
      = val_main_v74 (F := Ideal) x0 x1 x2 x3 x4 x5 x6 x7 x8 x9 := by
  unfold val_main_v74 val_main_call3_v10 val_main_call3_v9 val_main_call3_v8 val_main_call3_v7 val_main_call3_v6 val_main_call3_v5
    val_main_call3_v4 val_main_call3_v3 val_main_call3_v2 val_main_call3_v1 val_main_call3_v0 val_main_call3_cst val_main_call3_cst_0 val_main_call3_cst_1
  generalize val_main_v73 (F := Ideal) x0 x1 x2 x3 x4 x5 x6 x7 x8 x9 = z
  rfl

/-- THE RESULT: at the last boundary the result buffer holds the reference's result stage of the arguments. -/
theorem result (c : Dev nD) : W12 m ρ c (Proc.devRef .tc main_v69) = val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W12_arr m ρ c 3).trans ((Region3.value (V11 m ρ) c (m ((c : Thread nD τ).loc main_arg9)) (at11_bias m ρ c)).trans
    (by rw [show V11 m ρ c main_v67 = _ from at11_h2 m ρ c, show V11 m ρ c main_arg8 = _ from at11_arg8 m ρ c]; exact ref_tail _ _ _ _ _ _ _ _ _ _))

end Cert.KernelIdeal.Fold

end
-- ==== Proof.lean ====
/-
  The certificate of a two-layer graph convolution network whose four dense layers are TensorCore kernels.

  Both programs compute, for node features `x` and an edge list: `h = x·W_pre + b_pre`; twice
  `h ← max(0, A·(h·W) + b)`, where `A` gathers rows by an edge's source, scales each by the edge's symmetric
  normalisation weight (the inverse square roots of the two end points' degrees, self loops included) and adds the rows
  up by destination; then the row-wise log-softmax of `h·W_post + b_post`. The reference spells every step with host
  operations. The kernel program keeps the edge arithmetic, the gathers and the scatter-adds on the host, operation for
  operation the reference's, and replaces each of the four matrix products by a kernel over blocks of 5000 rows that
  narrows its operands to bf16, multiplies into an f32 accumulator that starts at zero, adds the bias row where there is
  one, and, in the last kernel, takes the log-softmax of its own block.

  Over the extended reals a change of float format is the identity and a product into a zero accumulator is the plain
  finite sum `Σ_k a[r,k]·w[k,j]`, which is also what the reference's `dot_general` is; a block of rows of the product
  is the product of the block; a row's maximum and a row's sum of exponentials over the 40 classes see only that row, so
  the last kernel's log-softmax of a block is the block of the reference's log-softmax (whose one extra maximum with
  `-∞` changes nothing). So region by region the kernel program leaves in each array exactly the reference's stage of
  the same arguments, the shared host operations being applied to equal arrays. No law beyond "the same finite sum" is
  used, and the inputs' finiteness is not needed.

  The three frames are the generated frame certificates (the reference's is its run with the result dropped); the
  idealization rewrote nothing, so `preserves` is `True`.
-/
import proofs.«171773_j83657372991833_1_alg».proof.Defs
import proofs.«171773_j83657372991833_1_alg».proof.Proof.Gen.Kernel
import proofs.«171773_j83657372991833_1_alg».proof.Proof.Gen.Kernel.Frame
import proofs.«171773_j83657372991833_1_alg».proof.Proof.Gen.KernelIdeal
import proofs.«171773_j83657372991833_1_alg».proof.Proof.Gen.KernelIdeal.Frame
import proofs.«171773_j83657372991833_1_alg».proof.Proof.Gen.ReferenceIdeal
import proofs.«171773_j83657372991833_1_alg».proof.Proof.Gen.Pre_finite_inputs
import proofs.«171773_j83657372991833_1_alg».proof.Proof.RefStages
import proofs.«171773_j83657372991833_1_alg».proof.Proof.KRun
import proofs.«171773_j83657372991833_1_alg».proof.Proof.KFold
import Idealize.ShloMosaic.Adequacy
import Idealize.ShloMosaic.Init

noncomputable section

namespace Cert.Proof

open Idealize.ShloMosaic Idealize.ShloMosaic.TcCoe Idealize.SL.Sem

/-- The word-level kernel program runs, and leaves its arguments as launched. -/
theorem frame_kernel : Cert.frame_Kernel := fun m ρ _ => Cert.Kernel.Gen.frame m ρ

/-- The idealized kernel program runs, and leaves its arguments as launched. -/
theorem frame_kernelIdeal : Cert.frame_KernelIdeal := fun m ρ _ => Cert.KernelIdeal.Gen.frame m ρ

/-- The reference runs, and leaves its arguments as launched: its run with the result dropped. -/
theorem frame_referenceIdeal : Cert.frame_ReferenceIdeal := fun m ρ _ =>
  (θ_run Cert.ReferenceIdeal.defs _ _).mono (fun _ h c => (h c).2) (Cert.ReferenceIdeal.Stages.run m ρ)

/-- The idealization rewrote no operation. -/
theorem preserves : Cert.preserves_Kernel_KernelIdeal := trivial

/-- From memories that agree on the ten arguments both programs end with the reference's result stage of those
    arguments in their result arrays: the kernel program by reading its boundaries back, the reference by its run. -/
theorem algebraic : Cert.algebraic_KernelIdeal_ReferenceIdeal := by
  intro m ρ m' ρ' _ hagree
  refine ⟨fun c => Cert.ReferenceIdeal.ReadP.val_main_v74 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c => ⟨(h c).1.trans (Cert.KernelIdeal.Fold.result m ρ c), (h c).2⟩)
      (Cert.KernelIdeal.RunNamed.run_named (F := Ideal) m ρ)
  · refine (θ_run Cert.ReferenceIdeal.defs _ _).mono (fun r h c => ⟨(h c).1.trans ?_, (h c).2⟩)
      (Cert.ReferenceIdeal.Stages.run m' ρ')
    obtain ⟨e0, e1, e2, e3, e4, e5, e6, e7, e8, e9⟩ := hagree c
    rw [e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
